-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg1 : IVec S2x1000000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S2x1000000 32 := broadcastInDim S2x1000000 ![] bcast_S_S2x1000000 main_c_6
  let main_v20 : IVec S2x1000000 1 := cmpi .sge main_arg1 main_v19
  let main_c_7 : IVec S_ 32 := constantI S_ 32 100000#32
  let main_v21 : IVec S2x1000000 32 := broadcastInDim S2x1000000 ![] bcast_S_S2x1000000 main_c_7
  let main_v22 : IVec S2x1000000 1 := cmpi .slt main_arg1 main_v21
  let main_v23 : IVec S2x1000000 1 := andi main_v20 main_v22
  let main_c_8 : IVec S_ 1 := constantI S_ 1 1#1
  let main_v24 : IVec S_ 1 := (fun x v => Host.reduce IntOp.andi x v reducesTo_S2x1000000_S_d0_1 h_S_) main_v23 main_c_8
  let main_v25 : IVec S_ 1 := andi main_v18 main_v24
  main_v25

def fn {F : FTy → Type} [FloatOps F] (main_arg0 : FVec F S100000x64 .f32) (main_arg1 : IVec S2x1000000 32) (main_arg2 : FVec F S1000000 .f32) (main_arg3 : IVec S100000 32) (main_arg4 : FVec F S1x64 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S1x64 : Shape := ⟨2, ![1, 64]⟩
abbrev S1 : Shape := ⟨1, ![1]⟩
abbrev S1x1000000 : Shape := ⟨2, ![1, 1000000]⟩
abbrev S_ : Shape := ⟨0, ![]⟩
abbrev S1000000x1 : Shape := ⟨2, ![1000000, 1]⟩
abbrev S512 : Shape := ⟨1, ![512]⟩
abbrev S100000x1 : Shape := ⟨2, ![100000, 1]⟩
abbrev S64x1 : Shape := ⟨2, ![64, 1]⟩
abbrev S1x1 : Shape := ⟨2, ![1, 1]⟩
abbrev S1x1015808 : Shape := ⟨2, ![1, 1015808]⟩
abbrev S2x1x512 : Shape := ⟨3, ![2, 1, 512]⟩
abbrev S1x16384 : Shape := ⟨2, ![1, 16384]⟩
abbrev S1x1x512 : Shape := ⟨3, ![1, 1, 512]⟩
abbrev S1x512 : Shape := ⟨2, ![1, 512]⟩
abbrev S512x16384 : Shape := ⟨2, ![512, 16384]⟩
abbrev S512x1 : Shape := ⟨2, ![512, 1]⟩

abbrev nBuf : Space → Nat
  | .hbm => 82
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S100000, .i32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000, .i32⟩
  | .hbm, ⟨19, _⟩ => ⟨S_, .f32⟩
  | .hbm, ⟨20, _⟩ => ⟨S100000, .f32⟩
  | .hbm, ⟨21, _⟩ => ⟨S_, .f32⟩
  | .hbm, ⟨22, _⟩ => ⟨S512, .f32⟩
  | .hbm, ⟨23, _⟩ => ⟨S100000x1, .i32⟩
  | .hbm, ⟨24, _⟩ => ⟨S512, .f32⟩
  | .hbm, ⟨25, _⟩ => ⟨S64x1, .f32⟩
  | .hbm, ⟨26, _⟩ => ⟨S100000x1, .f32⟩
  | .hbm, ⟨27, _⟩ => ⟨S100000, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1, .i32⟩
  | .hbm, ⟨37, _⟩ => ⟨S_, .i32⟩
  | .hbm, ⟨38, _⟩ => ⟨S1000000x1, .i32⟩
  | .hbm, ⟨39, _⟩ => ⟨S1000000x1, .i1⟩
  | .hbm, ⟨40, _⟩ => ⟨S1x1, .i32⟩
  | .hbm, ⟨41, _⟩ => ⟨S1000000x1, .i32⟩
  | .hbm, ⟨42, _⟩ => ⟨S1000000x1, .i1⟩
  | .hbm, ⟨43, _⟩ => ⟨S1000000x1, .i1⟩
  | .hbm, ⟨44, _⟩ => ⟨S_, .i1⟩
  | .hbm, ⟨45, _⟩ => ⟨S1000000, .i1⟩
  | .hbm, ⟨46, _⟩ => ⟨S1000000, .f32⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S1000000, .f32⟩
  | .hbm, ⟨51, _⟩ => ⟨S1000000, .bf16⟩
  | .hbm, ⟨52, _⟩ => ⟨S1000000, .f32⟩
  | .hbm, ⟨53, _⟩ => ⟨S1000000, .f32⟩
  | .hbm, ⟨54, _⟩ => ⟨S1000000, .bf16⟩
  | .hbm, ⟨55, _⟩ => ⟨S1x1000000, .bf16⟩
  | .hbm, ⟨56, _⟩ => ⟨S1x1000000, .bf16⟩
  | .hbm, ⟨57, _⟩ => ⟨S1x1000000, .i32⟩
  | .hbm, ⟨58, _⟩ => ⟨S_, .i32⟩
  | .hbm, ⟨59, _⟩ => ⟨S_, .bf16⟩
  | .hbm, ⟨60, _⟩ => ⟨S1x1015808, .bf16⟩
  | .hbm, ⟨61, _⟩ => ⟨S_, .i32⟩
  | .hbm, ⟨62, _⟩ => ⟨S_, .bf16⟩
  | .hbm, ⟨63, _⟩ => ⟨S1x1015808, .bf16⟩
  | .hbm, ⟨64, _⟩ => ⟨S_, .i32⟩
  | .hbm, ⟨65, _⟩ => ⟨S_, .i32⟩
  | .hbm, ⟨66, _⟩ => ⟨S1x1015808, .i32⟩
  | .hbm, ⟨67, _⟩ => ⟨S2x1x512, .f32⟩
  | .hbm, ⟨68, _⟩ => ⟨S1x1x512, .f32⟩
  | .hbm, ⟨69, _⟩ => ⟨S1x512, .f32⟩
  | .hbm, ⟨70, _⟩ => ⟨S1x1x512, .f32⟩
  | .hbm, ⟨71, _⟩ => ⟨S1x512, .f32⟩
  | .hbm, ⟨72, _⟩ => ⟨S1x512, .f32⟩
  | .hbm, ⟨73, _⟩ => ⟨S512, .f32⟩
  | .hbm, ⟨74, _⟩ => ⟨S_, .f32⟩
  | .hbm, ⟨75, _⟩ => ⟨S512, .f32⟩
  | .hbm, ⟨76, _⟩ => ⟨S512, .f32⟩
  | .hbm, ⟨77, _⟩ => ⟨S512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512x1, .f32⟩
  | .local _ .vmem, ⟨0, _⟩ => ⟨S1x16384, .bf16⟩
  | .local _ .vmem, ⟨1, _⟩ => ⟨S1x16384, .bf16⟩
  | .local _ .vmem, ⟨2, _⟩ => ⟨S1x16384, .bf16⟩
  | .local _ .vmem, ⟨3, _⟩ => ⟨S1x16384, .bf16⟩
  | .local _ .vmem, ⟨4, _⟩ => ⟨S1x16384, .i32⟩
  | .local _ .vmem, ⟨5, _⟩ => ⟨S1x16384, .i32⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_cst : Ref sig .tc := ⟨.hbm, 47, rfl⟩
abbrev main_call0_v14 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_call1_v0 : Ref sig .tc := ⟨.hbm, 59, rfl⟩
abbrev main_v27 : Ref sig .tc := ⟨.hbm, 60, rfl⟩
abbrev main_c_3 : Ref sig .tc := ⟨.hbm, 61, rfl⟩
abbrev main_call2_v0 : Ref sig .tc := ⟨.hbm, 62, rfl⟩
abbrev main_v28 : Ref sig .tc := ⟨.hbm, 63, rfl⟩
abbrev main_c_4 : Ref sig .tc := ⟨.hbm, 64, rfl⟩
abbrev main_call3_v0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 31], ![false, false]⟩

def k0_cond2 (i : grid0.Coords) : BitVec 1 :=
  let arg1 : BitVec 32 := BitVec.ofNat 32 (i 1).val
  let c30_i32 : BitVec 32 := 30#32
  let v23 : BitVec 1 := Scalar.cmpi .eq arg1 c30_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  shapeCasts_S1x64_S64x1 : S1x64.ShapeCasts S64x1
  shapeCasts_S100000x1_S100000 : S100000x1.ShapeCasts S100000
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bitsLt_bf16_f32 : FTy.bits .bf16 < FTy.bits .f32
  shapeCasts_S1000000_S1x1000000 : S1000000.ShapeCasts S1x1000000
  pads_S1x1000000_S1x1015808_000_0158080 : S1x1000000.Pads (![0, 0] : Fin 2 → Nat) ![0, 15808] ![0, 0] S1x1015808
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  iota_S512x16384_d0_w32 : S512x16384.Iotas .tc 32 [0]
  broadcasts_S1x16384_S512x16384 : S1x16384.Broadcasts S512x16384
  natLt_1_32 : 1 < 32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  slices_S2x1x512_S1x1x512_0_0_0 : S2x1x512.Slices ![0, 0, 0] S1x1x512
  slices_S2x1x512_S1x1x512_1_0_0 : S2x1x512.Slices ![1, 0, 0] S1x1x512
  shapeCasts_S1x512_S512 : S1x512.ShapeCasts S512
  shapeCasts_S1_S_ : S1.ShapeCasts S_
  shapeCasts_S512_S512x1 : S512.ShapeCasts S512x1
  gather_S100000_S1000000x1_S1000000_n_0_n_n_0_1_1_wf : GatherDims.WF S100000 S1000000x1 S1000000 [] [0] [] [0] [] 1 ![1]
  scatter_S512_S100000x1_S100000_n_0_0_1_wf : ScatterDims.WF S512 S100000x1 S100000 [] [0] [0] 1
  dot_S100000x64_S64x1_S100000x1_1_0_0_1_n_n_wf : DotDims.WF S100000x64 S64x1 S100000x1 [1] [0] [0] [1] [] []
  dot_S1x16384_S512x16384_S1x512_1_1_0_0_n_n_wf : DotDims.WF S1x16384 S512x16384 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x1015808.size a
  hwx0_0 : ∀ i : grid0.Coords, EltTy.bits .bf16 = 32 ∨ (Rect.block (s := S1x1015808) S1x16384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x1015808.size a
  hwx0_1 : ∀ i : grid0.Coords, EltTy.bits .bf16 = 32 ∨ (Rect.block (s := S1x1015808) S1x16384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .i32 = 32 ∨ (Rect.block (s := S1x1015808) S1x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)

variable [Facts₀]

def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S1x16384_S512x16384_S1x512_1_1_0_0_n_n : DotDims S1x16384 S512x16384 S1x512 where
  lhsContracting := [1]
  rhsContracting := [1]
  lhsNonContracting := [0]
  rhsNonContracting := [0]
  lhsBatch := []
  rhsBatch := []
  wf := dot_S1x16384_S512x16384_S1x512_1_1_0_0_n_n_wf

abbrev win0_0 : Pipeline.Window sig grid0 :=
  Pipeline.Window.ofSpec (Memref.whole main_v27) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S100000 : Shape := ⟨1, ![100000]⟩
abbrev S1x64 : Shape := ⟨2, ![1, 64]⟩
abbrev S1 : Shape := ⟨1, ![1]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x1 : Shape := ⟨2, ![64, 1]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S100000, .i32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x1, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S100000x64, .f32⟩
  | .hbm, ⟨24, _⟩ => ⟨S1000000x1, .i32⟩
  | .hbm, ⟨25, _⟩ => ⟨S100000x64, .f32⟩
  | .hbm, ⟨26, _⟩ => ⟨S_, .f32⟩
  | .hbm, ⟨27, _⟩ => ⟨S512x64, .f32⟩
  | .hbm, ⟨28, _⟩ => ⟨S100000x1, .i32⟩
  | .hbm, ⟨29, _⟩ => ⟨S512x64, .f32⟩
  | .hbm, ⟨30, _⟩ => ⟨S_, .f32⟩
  | .hbm, ⟨31, _⟩ => ⟨S100000, .f32⟩
  | .hbm, ⟨32, _⟩ => ⟨S_, .f32⟩
  | .hbm, ⟨33, _⟩ => ⟨S512, .f32⟩
  | .hbm, ⟨34, _⟩ => ⟨S100000x1, .i32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512x1, .f32⟩
  | .hbm, ⟨40, _⟩ => ⟨S512x64, .f32⟩
  | .hbm, ⟨41, _⟩ => ⟨S512x64, .f32⟩
  | .hbm, ⟨42, _⟩ => ⟨S64x1, .f32⟩
  | .hbm, ⟨43, _⟩ => ⟨S512x1, .f32⟩
  | .hbm, ⟨44, _⟩ => ⟨S1x1, .f32⟩
  | .hbm, ⟨45, _⟩ => ⟨S512x1, .f32⟩
  | .hbm, ⟨46, _⟩ => ⟨S512x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S1x64_S64x1_1_0 : S1x64.Transposes [1, 0] S64x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Spec.lean ====
/-
  The two programs as mathematics, index by index, over the extended reals.

  A graph network's pooled read-out: every edge `e` carries the scalar `edge_attr e * (x (src e) · W)`; graph `g`
  collects the edges whose target node is labelled `g`; the total is divided by the number of nodes labelled `g`
  (at least one) and the bias is added. The kernel forms the per-edge scalar first and sums it against a one-hot
  row per graph, block by block over a padded edge axis split between two cores; the reference scatters the
  64-wide messages onto the nodes, the nodes onto the graphs, divides, and only then contracts with `W`.
  This file names the pieces of both roads; it imports no program.
-/
import Idealize.ShloMosaic.Lib.ValueIdx
import Idealize.ShloMosaic.Lib.IdealHost
import Idealize.ShloMosaic.PureOps.Ideal.Laws

noncomputable section

open scoped BigOperators

namespace GnnPool

open Idealize.ShloMosaic Idealize.ShloMosaic.ValueIdx

/-- Node features. -/
abbrev SX : Shape := ⟨2, ![100000, 64]⟩
/-- The two rows of edge end points: row 0 the sources, row 1 the targets. -/
abbrev SEI : Shape := ⟨2, ![2, 1000000]⟩
/-- One entry per edge. -/
abbrev SE : Shape := ⟨1, ![1000000]⟩
/-- One entry per node. -/
abbrev SN : Shape := ⟨1, ![100000]⟩
/-- The read-out weights. -/
abbrev SW : Shape := ⟨2, ![1, 64]⟩
/-- The bias. -/
abbrev SB : Shape := ⟨1, ![1]⟩
/-- The result: one number per graph. -/
abbrev SO : Shape := ⟨2, ![512, 1]⟩
/-- The edge axis padded to 62 blocks of 16384, as one row. -/
abbrev SP : Shape := ⟨2, ![1, 1015808]⟩
/-- The kernel's output: one row of 512 per core. -/
abbrev SK : Shape := ⟨3, ![2, 1, 512]⟩

/-- Every end point of every edge names a node. -/
def InRange (ei : IVec SEI 32) : Prop :=
  ∀ (r : Fin 2) (e : Fin 1000000), 0 ≤ (ei (ix2 r e)).toInt ∧ (ei (ix2 r e)).toInt < 100000

/-- The source node of edge `e`: the word read signed and clamped into the node range (a gather's clamp; under
    `InRange` the clamp does nothing). -/
def srcOf (ei : IVec SEI 32) (e : Fin 1000000) : Fin 100000 :=
  ⟨min (ei (ix2 0 e)).toInt.toNat 99999, by omega⟩

/-- The target node of edge `e`, likewise. -/
def dstOf (ei : IVec SEI 32) (e : Fin 1000000) : Fin 100000 :=
  ⟨min (ei (ix2 1 e)).toInt.toNat 99999, by omega⟩

/-- A node's features contracted with the weights. -/
def xw (x : SX.Idx → EReal) (W : SW.Idx → EReal) (n : Fin 100000) : EReal :=
  ∑ d : Fin 64, x (ix2 n d) * W (ix2 0 d)

/-- The scalar an edge carries. -/
def msg (x : SX.Idx → EReal) (ei : IVec SEI 32) (ea : SE.Idx → EReal) (W : SW.Idx → EReal) (e : Fin 1000000) : EReal :=
  ea (ix1 e) * xw x W (srcOf ei e)

/-- The padded row of edge scalars: zero past the last edge. -/
def hiP (x : SX.Idx → EReal) (ei : IVec SEI 32) (ea : SE.Idx → EReal) (W : SW.Idx → EReal) : SP.Idx → EReal :=
  fun i => if h : (i 1).val < 1000000 then msg x ei ea W ⟨(i 1).val, h⟩ else 0

/-- The padded row of the kernel's correction terms: an edge scalar less itself (zero when it is finite). -/
def loP (x : SX.Idx → EReal) (ei : IVec SEI 32) (ea : SE.Idx → EReal) (W : SW.Idx → EReal) : SP.Idx → EReal :=
  fun i => if h : (i 1).val < 1000000 then msg x ei ea W ⟨(i 1).val, h⟩ - msg x ei ea W ⟨(i 1).val, h⟩ else 0

/-- The padded row of graph labels: the label of each edge's target node, the word zero past the last edge. -/
def gidP (ei : IVec SEI 32) (bt : IVec SN 32) : IVec SP 32 :=
  fun i => if h : (i 1).val < 1000000 then bt (ix1 (dstOf ei ⟨(i 1).val, h⟩)) else 0#32

/-- One entry of the one-hot matrix: is the label word `w` the graph `g`? -/
def oh (w : BitVec 32) (g : Fin 512) : EReal := if w = BitVec.ofNat 32 g.val then 1 else 0

/-- Where lane `j` of block `k` of core `c` sits on the padded edge axis. -/
def pos (c : Fin 2) (k : Fin 31) (j : Fin 16384) : Fin 1015808 :=
  ⟨(c.val * 31 + k.val) * 16384 + j.val, by
    have hc := c.isLt; have hk := k.isLt; have hj := j.isLt
    have : c.val * 31 + k.val ≤ 61 := by omega
    nlinarith⟩

/-- What one block adds to graph `g`'s running total: the one-hot contraction of the edge scalars plus that of the
    correction terms. -/
def blockSum (HI LO : SP.Idx → EReal) (GID : IVec SP 32) (c : Fin 2) (k : Fin 31) (g : Fin 512) : EReal :=
  (∑ j : Fin 16384, HI (ix2 0 (pos c k j)) * oh (GID (ix2 0 (pos c k j))) g)
    + (∑ j : Fin 16384, LO (ix2 0 (pos c k j)) * oh (GID (ix2 0 (pos c k j))) g)

/-- The kernel's output array: core `c`'s row holds, per graph, the sum of its 31 blocks. -/
def regionOut (HI LO : SP.Idx → EReal) (GID : IVec SP 32) : SK.Idx → EReal :=
  fun i => ∑ k : Fin 31, blockSum HI LO GID (i 0) k (i 2)

/-- The number of nodes labelled `g`: a sum of ones (a label outside `[0, 512)` counts nowhere). -/
def cnt (bt : IVec SN 32) (g : Fin 512) : EReal :=
  ∑ _v ∈ Finset.univ.filter (fun v : Fin 100000 => (bt (ix1 v)).toInt = (g.val : ℤ)), (1 : EReal)

/-- The divisor: the count, at least one. -/
def den (bt : IVec SN 32) (g : Fin 512) : EReal := max (cnt bt g) 1

/-- The kernel's result from its output array: the two cores' rows added, divided, the bias added. -/
def kernelOut (OUT : SK.Idx → EReal) (bt : IVec SN 32) (b : SB.Idx → EReal) : SO.Idx → EReal :=
  fun i => Ideal.div (OUT (ix3 0 0 (i 0)) + OUT (ix3 1 0 (i 0))) (den bt (i 0)) + b (ix1 0)

/-- The reference's messages gathered onto the nodes: node `v`, feature `d`. -/
def agg (x : SX.Idx → EReal) (ei : IVec SEI 32) (ea : SE.Idx → EReal) (v : Fin 100000) (d : Fin 64) : EReal :=
  ∑ e ∈ Finset.univ.filter (fun e : Fin 1000000 => (ei (ix2 1 e)).toInt = (v.val : ℤ)),
    x (ix2 (srcOf ei e) d) * ea (ix1 e)

/-- The nodes' totals gathered onto the graphs. -/
def sums (x : SX.Idx → EReal) (ei : IVec SEI 32) (ea : SE.Idx → EReal) (bt : IVec SN 32) (g : Fin 512) (d : Fin 64) : EReal :=
  ∑ v ∈ Finset.univ.filter (fun v : Fin 100000 => (bt (ix1 v)).toInt = (g.val : ℤ)), agg x ei ea v d

/-- The reference's result: the pooled means contracted with the weights, the bias added. -/
def refOut (x : SX.Idx → EReal) (ei : IVec SEI 32) (ea : SE.Idx → EReal) (bt : IVec SN 32) (W : SW.Idx → EReal)
    (b : SB.Idx → EReal) : SO.Idx → EReal :=
  fun i => (∑ d : Fin 64, Ideal.div (sums x ei ea bt (i 0) d) (den bt (i 0)) * W (ix2 0 d)) + b (ix1 0)

end GnnPool

end
-- ==== Proof.Algebra.lean ====
/-
  The law that joins the two roads. With real inputs and edge end points in range, the kernel's pooled read-out
  (edge scalars summed against one-hot rows over the padded, blocked edge axis, divided, bias added) and the
  reference's (messages scattered onto nodes, nodes onto graphs, divided, contracted with the weights, bias added)
  are the same real number: both are  (∑ over the edges whose target is labelled g of  edge_attr · (x[src] · W)) / n_g + b.
-/
import proofs.«403148_j5978594476679_3_alg».proof.Proof.Spec
import Idealize.ShloMosaic.Lib.ValueIdx
import Idealize.ShloMosaic.PureOps.Ideal.Laws
import Mathlib.Data.EReal.Basic
import Mathlib.Data.EReal.Operations
import Mathlib.Algebra.BigOperators.Fin
import Mathlib.Algebra.BigOperators.Intervals
import Mathlib.Tactic.Ring
import Mathlib.Tactic.Linarith
import Mathlib.Tactic.FieldSimp

noncomputable section

open scoped BigOperators

namespace GnnPool

open Idealize.ShloMosaic Idealize.ShloMosaic.ValueIdx

/-! ## Sums -/

/-- The coercion of reals into the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over a padded axis of a function that vanishes past `m` is the sum over the first `m` places. -/
theorem sum_pad {M : Type*} [AddCommMonoid M] {m n : ℕ} (hmn : m ≤ n) (G : Fin m → M) :
    ∑ p : Fin n, (if h : p.val < m then G ⟨p.val, h⟩ else 0) = ∑ e : Fin m, G e := by
  have h1 : ∑ p : Fin n, (if h : p.val < m then G ⟨p.val, h⟩ else 0)
      = ∑ p ∈ Finset.range n, (if h : p < m then G ⟨p, h⟩ else 0) :=
    Fin.sum_univ_eq_sum_range (fun p => if h : p < m then G ⟨p, h⟩ else 0) n
  have h2 : ∑ e : Fin m, G e = ∑ p ∈ Finset.range m, (if h : p < m then G ⟨p, h⟩ else 0) := by
    rw [← Fin.sum_univ_eq_sum_range (fun p => if h : p < m then G ⟨p, h⟩ else 0) m]
    refine Finset.sum_congr rfl fun e _ => ?_
    rw [dif_pos e.isLt]
  rw [h1, h2, ← Finset.sum_range_add_sum_Ico _ hmn]
  have h3 : ∑ p ∈ Finset.Ico m n, (if h : p < m then G ⟨p, h⟩ else 0) = 0 := by
    refine Finset.sum_eq_zero fun p hp => ?_
    rw [dif_neg (by have := (Finset.mem_Ico.mp hp).1; omega)]
  rw [h3, add_zero]

/-- A sum over `a` blocks of `b` places each is the sum over the `a * b` places laid end to end. -/
theorem sum_blocks {M : Type*} [AddCommMonoid M] (a b : ℕ) (F : ℕ → M) :
    ∑ q : Fin a, ∑ j : Fin b, F (q.val * b + j.val) = ∑ p : Fin (a * b), F p.val := by
  rw [← Fintype.sum_prod_type', ← (finProdFinEquiv (m := a) (n := b)).sum_comp]
  refine Finset.sum_congr rfl fun qj _ => ?_
  rw [finProdFinEquiv_apply_val, Nat.mul_comm b, Nat.add_comm]

/-- The padded edge axis is the two cores' 31 blocks of 16384 lanes laid end to end. -/
theorem sum_pos {M : Type*} [AddCommMonoid M] (f : Fin 1015808 → M) :
    ∑ c : Fin 2, ∑ k : Fin 31, ∑ j : Fin 16384, f (pos c k j) = ∑ p : Fin 1015808, f p := by
  set F : ℕ → M := fun n => if h : n < 1015808 then f ⟨n, h⟩ else 0 with hF
  have hpos : ∀ (c : Fin 2) (k : Fin 31) (j : Fin 16384), f (pos c k j) = F ((c.val * 31 + k.val) * 16384 + j.val) := by
    intro c k j
    have hlt : (c.val * 31 + k.val) * 16384 + j.val < 1015808 := (pos c k j).isLt
    rw [hF]; dsimp only; rw [dif_pos hlt]; rfl
  have hf : ∀ p : Fin 1015808, f p = F p.val := by
    intro p; rw [hF]; dsimp only; rw [dif_pos p.isLt]
  calc ∑ c : Fin 2, ∑ k : Fin 31, ∑ j : Fin 16384, f (pos c k j)
      = ∑ c : Fin 2, ∑ k : Fin 31, ∑ j : Fin 16384, F ((c.val * 31 + k.val) * 16384 + j.val) :=
        Finset.sum_congr rfl fun c _ => Finset.sum_congr rfl fun k _ => Finset.sum_congr rfl fun j _ => hpos c k j
    _ = ∑ q : Fin (2 * 31), ∑ j : Fin 16384, F (q.val * 16384 + j.val) :=
        sum_blocks 2 31 (fun n => ∑ j : Fin 16384, F (n * 16384 + j.val))
    _ = ∑ p : Fin (2 * 31 * 16384), F p.val := sum_blocks (2 * 31) 16384 F
    _ = ∑ p : Fin 1015808, F p.val := rfl
    _ = ∑ p : Fin 1015808, f p := Finset.sum_congr rfl fun p _ => (hf p).symm

/-! ## Words -/

/-- A label word is the graph `g` exactly when its signed value is `g`. -/
theorem word_eq_iff (w : BitVec 32) (g : Fin 512) : w = BitVec.ofNat 32 g.val ↔ w.toInt = (g.val : ℤ) := by
  have hg := g.isLt
  have h1 : (BitVec.ofNat 32 g.val).toInt = (g.val : ℤ) := by
    rw [BitVec.toInt_eq_toNat_cond, BitVec.toNat_ofNat]
    have : g.val % 2 ^ 32 = g.val := Nat.mod_eq_of_lt (by omega)
    rw [this]
    have : 2 * g.val < 2 ^ 32 := by omega
    rw [if_pos this]
  constructor
  · intro h; rw [h, h1]
  · intro h; exact BitVec.eq_of_toInt_eq (h.trans h1.symm)

/-- The one-hot entry as a real number. -/
theorem oh_coe (w : BitVec 32) (g : Fin 512) :
    oh w g = (((if w.toInt = (g.val : ℤ) then 1 else 0 : ℝ)) : EReal) := by
  unfold oh
  by_cases h : w.toInt = (g.val : ℤ)
  · rw [if_pos ((word_eq_iff w g).mpr h), if_pos h, EReal.coe_one]
  · rw [if_neg (fun h' => h ((word_eq_iff w g).mp h')), if_neg h, EReal.coe_zero]

/-! ## The kernel's numerator -/

/-- The two cores' rows added: one sum over the whole padded edge axis. -/
theorem region_pair (HI LO : SP.Idx → EReal) (GID : IVec SP 32) (g : Fin 512) :
    regionOut HI LO GID (ix3 0 0 g) + regionOut HI LO GID (ix3 1 0 g)
      = ∑ p : Fin 1015808, (HI (ix2 0 p) * oh (GID (ix2 0 p)) g + LO (ix2 0 p) * oh (GID (ix2 0 p)) g) := by
  rw [← sum_pos (fun p => HI (ix2 0 p) * oh (GID (ix2 0 p)) g + LO (ix2 0 p) * oh (GID (ix2 0 p)) g),
    Fin.sum_univ_two]
  have hc : ∀ c : Fin 2, regionOut HI LO GID (ix3 c 0 g)
      = ∑ k : Fin 31, ∑ j : Fin 16384,
          (HI (ix2 0 (pos c k j)) * oh (GID (ix2 0 (pos c k j))) g + LO (ix2 0 (pos c k j)) * oh (GID (ix2 0 (pos c k j))) g) := by
    intro c
    show ∑ k : Fin 31, blockSum HI LO GID c k g = _
    refine Finset.sum_congr rfl fun k _ => ?_
    unfold blockSum
    rw [← Finset.sum_add_distrib]
  rw [hc 0, hc 1]

/-! ## Regrouping the reference's two scatters -/

/-- Summing over the nodes labelled `g` of the sums over the edges that target the node is summing over the edges
    whose target node is labelled `g`. -/
theorem sum_nodes_edges (ei : IVec SEI 32) (bt : IVec SN 32) (hin : InRange ei) (g : Fin 512) (h : Fin 1000000 → ℝ) :
    ∑ v ∈ Finset.univ.filter (fun v : Fin 100000 => (bt (ix1 v)).toInt = (g.val : ℤ)),
        ∑ e ∈ Finset.univ.filter (fun e : Fin 1000000 => (ei (ix2 1 e)).toInt = (v.val : ℤ)), h e
      = ∑ e : Fin 1000000, h e * (if (bt (ix1 (dstOf ei e))).toInt = (g.val : ℤ) then 1 else 0) := by
  have hd : ∀ (e : Fin 1000000) (v : Fin 100000), (ei (ix2 1 e)).toInt = (v.val : ℤ) ↔ dstOf ei e = v := by
    intro e v
    have h1 := hin 1 e
    constructor
    · intro hv
      apply Fin.ext
      show min (ei (ix2 1 e)).toInt.toNat 99999 = v.val
      have := v.isLt
      omega
    · intro hv
      have : min (ei (ix2 1 e)).toInt.toNat 99999 = v.val := congrArg Fin.val hv
      omega
  calc ∑ v ∈ Finset.univ.filter (fun v : Fin 100000 => (bt (ix1 v)).toInt = (g.val : ℤ)),
        ∑ e ∈ Finset.univ.filter (fun e : Fin 1000000 => (ei (ix2 1 e)).toInt = (v.val : ℤ)), h e
      = ∑ v : Fin 100000, ∑ e : Fin 1000000,
          (if (bt (ix1 v)).toInt = (g.val : ℤ) then (if dstOf ei e = v then h e else 0) else 0) := by
        rw [Finset.sum_filter]
        refine Finset.sum_congr rfl fun v _ => ?_
        by_cases hv : (bt (ix1 v)).toInt = (g.val : ℤ)
        · simp only [if_pos hv]
          rw [Finset.sum_filter]
          refine Finset.sum_congr rfl fun e _ => ?_
          by_cases he : dstOf ei e = v
          · rw [if_pos ((hd e v).mpr he), if_pos he]
          · rw [if_neg (fun h' => he ((hd e v).mp h')), if_neg he]
        · simp only [if_neg hv, Finset.sum_const_zero]
    _ = ∑ e : Fin 1000000, ∑ v : Fin 100000,
          (if (bt (ix1 v)).toInt = (g.val : ℤ) then (if dstOf ei e = v then h e else 0) else 0) := Finset.sum_comm
    _ = ∑ e : Fin 1000000, h e * (if (bt (ix1 (dstOf ei e))).toInt = (g.val : ℤ) then 1 else 0) := by
        refine Finset.sum_congr rfl fun e _ => ?_
        rw [Finset.sum_eq_single (dstOf ei e)]
        · by_cases hv : (bt (ix1 (dstOf ei e))).toInt = (g.val : ℤ)
          · rw [if_pos hv, if_pos rfl, if_pos hv, mul_one]
          · rw [if_neg hv, if_neg hv, mul_zero]
        · intro v _ hne
          have hne' : ¬ dstOf ei e = v := fun h' => hne h'.symm
          by_cases hv : (bt (ix1 v)).toInt = (g.val : ℤ)
          · rw [if_pos hv, if_neg hne']
          · rw [if_neg hv]
        · intro hne; exact absurd (Finset.mem_univ _) hne

/-! ## The two read-outs agree -/

/-- With real inputs and edge end points in range, at graph `g`: the kernel's read-out over its padded rows is the
    reference's. -/
theorem kernel_eq_ref_at (x : SX.Idx → EReal) (ei : IVec SEI 32) (ea : SE.Idx → EReal) (bt : IVec SN 32)
    (W : SW.Idx → EReal) (b : SB.Idx → EReal)
    (hx : ∀ i, ∃ r : ℝ, x i = (r : EReal)) (hea : ∀ i, ∃ r : ℝ, ea i = (r : EReal))
    (hW : ∀ i, ∃ r : ℝ, W i = (r : EReal)) (hb : ∀ i, ∃ r : ℝ, b i = (r : EReal)) (hin : InRange ei) (g : Fin 512) :
    Ideal.div (regionOut (hiP x ei ea W) (loP x ei ea W) (gidP ei bt) (ix3 0 0 g) + regionOut (hiP x ei ea W) (loP x ei ea W) (gidP ei bt) (ix3 1 0 g)) (den bt g) + b (ix1 0)
      = (∑ d : Fin 64, Ideal.div (sums x ei ea bt g d) (den bt g) * W (ix2 0 d)) + b (ix1 0) := by
  choose x' hx' using hx
  choose ea' hea' using hea
  choose W' hW' using hW
  choose b' hb' using hb
  -- the per-node contraction, the edge scalar and the "target is labelled g" indicator, as real numbers
  have hxw : ∀ n, xw x W n = ((∑ d : Fin 64, x' (ix2 n d) * W' (ix2 0 d) : ℝ) : EReal) := by
    intro n
    unfold xw
    rw [← coe_sum]
    refine Finset.sum_congr rfl fun d _ => ?_
    rw [hx', hW', EReal.coe_mul]
  have hmsg : ∀ e, msg x ei ea W e
      = ((ea' (ix1 e) * ∑ d : Fin 64, x' (ix2 (srcOf ei e) d) * W' (ix2 0 d) : ℝ) : EReal) := by
    intro e
    unfold msg
    rw [hea', hxw, ← EReal.coe_mul]
  -- the numerator: the sum over the true edges; the padding and the correction terms add nothing
  have hnum : regionOut (hiP x ei ea W) (loP x ei ea W) (gidP ei bt) (ix3 0 0 g) + regionOut (hiP x ei ea W) (loP x ei ea W) (gidP ei bt) (ix3 1 0 g)
      = ((∑ e : Fin 1000000, (ea' (ix1 e) * ∑ d : Fin 64, x' (ix2 (srcOf ei e) d) * W' (ix2 0 d))
            * (if (bt (ix1 (dstOf ei e))).toInt = (g.val : ℤ) then 1 else 0) : ℝ) : EReal) := by
    rw [region_pair, ← coe_sum]
    rw [← sum_pad (m := 1000000) (n := 1015808) (by norm_num)
      (fun e => (((ea' (ix1 e) * ∑ d : Fin 64, x' (ix2 (srcOf ei e) d) * W' (ix2 0 d))
            * (if (bt (ix1 (dstOf ei e))).toInt = (g.val : ℤ) then 1 else 0) : ℝ) : EReal))]
    refine Finset.sum_congr rfl fun p _ => ?_
    by_cases hp : p.val < 1000000
    · rw [dif_pos hp]
      have h1 : hiP x ei ea W (ix2 0 p) = msg x ei ea W ⟨p.val, hp⟩ := dif_pos hp
      have h2 : loP x ei ea W (ix2 0 p) = msg x ei ea W ⟨p.val, hp⟩ - msg x ei ea W ⟨p.val, hp⟩ := dif_pos hp
      have h3 : gidP ei bt (ix2 0 p) = bt (ix1 (dstOf ei ⟨p.val, hp⟩)) := dif_pos hp
      rw [h1, h2, h3, hmsg, oh_coe, ← EReal.coe_sub, sub_self, EReal.coe_zero, zero_mul, add_zero, ← EReal.coe_mul]
    · rw [dif_neg hp]
      have h1 : hiP x ei ea W (ix2 0 p) = 0 := dif_neg hp
      have h2 : loP x ei ea W (ix2 0 p) = 0 := dif_neg hp
      rw [h1, h2, zero_mul, add_zero]
  -- the divisor is a real number, at least one
  have hden : ∃ D : ℝ, 1 ≤ D ∧ den bt g = ((D : ℝ) : EReal) := by
    refine ⟨max ((Finset.univ.filter (fun v : Fin 100000 => (bt (ix1 v)).toInt = (g.val : ℤ))).card : ℝ) 1,
      le_max_right _ _, ?_⟩
    unfold den cnt
    rw [Finset.sum_const, ← EReal.coe_one, ← EReal.coe_nsmul, nsmul_eq_mul, mul_one]
    exact (EReal.coe_strictMono.monotone.map_max).symm
  -- the reference's graph totals, regrouped over the edges
  have hsums : ∀ d : Fin 64, sums x ei ea bt g d
      = ((∑ e : Fin 1000000, (x' (ix2 (srcOf ei e) d) * ea' (ix1 e))
            * (if (bt (ix1 (dstOf ei e))).toInt = (g.val : ℤ) then 1 else 0) : ℝ) : EReal) := by
    intro d
    unfold sums agg
    rw [← sum_nodes_edges ei bt hin g (fun e => x' (ix2 (srcOf ei e) d) * ea' (ix1 e)), ← coe_sum]
    refine Finset.sum_congr rfl fun v _ => ?_
    rw [← coe_sum]
    refine Finset.sum_congr rfl fun e _ => ?_
    rw [hx', hea', EReal.coe_mul]
  obtain ⟨D, hD1, hD⟩ := hden
  have hD0 : D ≠ 0 := ne_of_gt (lt_of_lt_of_le zero_lt_one hD1)
  rw [hnum, hD, Ideal.div_coe hD0, hb', ← EReal.coe_mul, ← EReal.coe_add]
  have hterm : ∀ d : Fin 64, Ideal.div (sums x ei ea bt g d) ((D : ℝ) : EReal) * W (ix2 0 d)
      = ((((∑ e : Fin 1000000, (x' (ix2 (srcOf ei e) d) * ea' (ix1 e))
            * (if (bt (ix1 (dstOf ei e))).toInt = (g.val : ℤ) then 1 else 0)) * (1 / D)) * W' (ix2 0 d) : ℝ) : EReal) := by
    intro d
    rw [hsums, Ideal.div_coe hD0, hW', ← EReal.coe_mul, ← EReal.coe_mul]
  -- the real identity: move the weights inside the sum over the edges
  have hreal : (∑ e : Fin 1000000, (ea' (ix1 e) * ∑ d : Fin 64, x' (ix2 (srcOf ei e) d) * W' (ix2 0 d))
            * (if (bt (ix1 (dstOf ei e))).toInt = (g.val : ℤ) then 1 else 0)) * (1 / D)
      = ∑ d : Fin 64, ((∑ e : Fin 1000000, (x' (ix2 (srcOf ei e) d) * ea' (ix1 e))
            * (if (bt (ix1 (dstOf ei e))).toInt = (g.val : ℤ) then 1 else 0)) * (1 / D)) * W' (ix2 0 d) := by
    simp only [Finset.sum_mul, Finset.mul_sum]
    rw [Finset.sum_comm]
    refine Finset.sum_congr rfl fun d _ => Finset.sum_congr rfl fun e _ => ?_
    ring
  rw [Finset.sum_congr rfl (fun d _ => hterm d), coe_sum, ← EReal.coe_add, hreal]

/-- With real inputs and edge end points in range, the kernel's read-out over its padded rows is the reference's. -/
theorem kernel_eq_ref (x : SX.Idx → EReal) (ei : IVec SEI 32) (ea : SE.Idx → EReal) (bt : IVec SN 32)
    (W : SW.Idx → EReal) (b : SB.Idx → EReal)
    (hx : ∀ i, ∃ r : ℝ, x i = (r : EReal)) (hea : ∀ i, ∃ r : ℝ, ea i = (r : EReal))
    (hW : ∀ i, ∃ r : ℝ, W i = (r : EReal)) (hb : ∀ i, ∃ r : ℝ, b i = (r : EReal)) (hin : InRange ei) :
    kernelOut (regionOut (hiP x ei ea W) (loP x ei ea W) (gidP ei bt)) bt b = refOut x ei ea bt W b := by
  funext i
  obtain ⟨g, z, rfl⟩ : ∃ (g : Fin 512) (z : Fin 1), i = ix2 g z := ⟨i 0, i 1, eq_ix2 i⟩
  exact kernel_eq_ref_at x ei ea bt W b hx hea hW hb hin g

end GnnPool

end
-- ==== Proof.PreFacts.lean ====
/-
  What the precondition says of the inputs: every float entry is a real number, and every end point of every edge
  is a node index.
-/
import proofs.«403148_j5978594476679_3_alg».proof.Defs
import proofs.«403148_j5978594476679_3_alg».proof.Proof.Gen.Pre_finite_inputs
import proofs.«403148_j5978594476679_3_alg».proof.Proof.Spec
import Idealize.ShloMosaic.Lib.ReduceAll
import Idealize.ShloMosaic.Lib.StableHlo.Predicate

noncomputable section

namespace Cert.PreFacts

open Idealize.ShloMosaic Idealize.ShloMosaic.ValueIdx GnnPool

/-- A rank-0 array has one index. -/
local instance subsingleton_scalar_idx : Subsingleton Cert.Pre_finite_inputs.S_.Idx :=
  ⟨fun a b => funext fun d => d.elim0⟩

/-- The pattern the precondition compares against denotes +∞. -/
theorem inf_pattern : Ideal.ofBits .f32 0x7F800000#32 = (⊤ : EReal) := by
  simp [Ideal.ofBits, Ideal.ieee]

/-- An extended real whose absolute value lies strictly below +∞ is a real number: at either infinity the
    absolute value is +∞ itself. -/
theorem real_of_abs_lt (a : EReal)
    (h : Ideal.cmp .olt (max a (-a)) (Ideal.ofBits .f32 0x7F800000#32) = 1#1) : ∃ r : ℝ, a = (r : EReal) := by
  rw [inf_pattern] at h
  induction a using EReal.rec with
  | bot => simp [Ideal.cmp] at h
  | coe r => exact ⟨r, rfl⟩
  | top => simp [Ideal.cmp] at h

/-- The precondition, all ones, gives: the four float inputs hold real numbers everywhere, and both rows of the
    edge table hold node indices. -/
theorem of_pre [Cert.Pre_finite_inputs.Facts]
    (x : SX.Idx → EReal) (ei : IVec SEI 32) (ea : SE.Idx → EReal) (bt : IVec SN 32) (W : SW.Idx → EReal) (b : SB.Idx → EReal)
    (h : Cert.Pre_finite_inputs.fn (F := Ideal) x ei ea bt W b = fun _ => 1#1) :
    (∀ i, ∃ r : ℝ, x i = (r : EReal)) ∧ (∀ i, ∃ r : ℝ, ea i = (r : EReal)) ∧ (∀ i, ∃ r : ℝ, W i = (r : EReal))
      ∧ (∀ i, ∃ r : ℝ, b i = (r : EReal)) ∧ InRange ei := by
  have e := congrFun h ix0
  dsimp only [Cert.Pre_finite_inputs.fn, Cert.Pre_finite_inputs.fn_part1] at e
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨hx, hea⟩, hW⟩, hb⟩, hei⟩ := e
  refine ⟨fun i => ?_, fun i => ?_, fun i => ?_, fun i => ?_, fun r k => ?_⟩
  · exact real_of_abs_lt (x i) (Host.reduce_andi_all _ _ _ _ _ hx i)
  · exact real_of_abs_lt (ea i) (Host.reduce_andi_all _ _ _ _ _ hea i)
  · exact real_of_abs_lt (W i) (Host.reduce_andi_all _ _ _ _ _ hW i)
  · exact real_of_abs_lt (b i) (Host.reduce_andi_all _ _ _ _ _ hb i)
  · -- the element of the range mask at row r, edge k: both comparisons hold there
    have hk := Host.reduce_andi_all _ _ _ _ _ hei (ix2 r k)
    change IntOp.andi (IntOp.cmpi .sge (ei (ix2 r k)) 0#32) (IntOp.cmpi .slt (ei (ix2 r k)) 100000#32) = 1#1 at hk
    obtain ⟨h0, h1⟩ := IntOp.andi_eq_one.1 hk
    have c0 : (0#32 : BitVec 32).toInt = 0 := by decide
    have c1 : (100000#32 : BitVec 32).toInt = 100000 := by decide
    have h0' := IntOp.cmpi_sge.1 h0
    have h1' := IntOp.cmpi_slt.1 h1
    rw [c0] at h0'
    rw [c1] at h1'
    exact ⟨h0', h1'⟩

end Cert.PreFacts

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefValue.lean ====
/-
  The reference's result, read off its run operation by operation, is the pooled read-out `GnnPool.refOut`:
  the messages scattered onto the nodes, the nodes onto the graphs, the quotient by the node count, the contraction
  with the weights and the bias.
-/
import proofs.«403148_j5978594476679_3_alg».proof.Proof.Gen.ReferenceIdeal.Read
import proofs.«403148_j5978594476679_3_alg».proof.Proof.Spec
import proofs.«403148_j5978594476679_3_alg».proof.Proof.LibScatterRead
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.RefValue

open Idealize.ShloMosaic Idealize.ShloMosaic.ValueIdx Cert.ReferenceIdeal GnnPool
open Idealize.ShloMosaic.ScatterRead

variable [Cert.ReferenceIdeal.Facts]

/-! ## Where the layout operations read -/

/-- Row 0 of the end points, as a flat vector, reads the array at `(0, e)`. -/
theorem idx_row0 (e : Fin 1000000) : Read.idx_main_v0 (Read.idx_main_v1 (ix1 e)) = ix2 (0 : Fin 2) e :=
  funext fun a => Fin.ext (by
    match a with
    | ⟨0, _⟩ => rfl
    | ⟨1, _⟩ => exact Nat.mod_eq_of_lt e.isLt)

/-- Row 1 of the end points, as a flat vector, reads the array at `(1, e)`. -/
theorem idx_row1 (e : Fin 1000000) : Read.idx_main_v2 (Read.idx_main_v3 (ix1 e)) = ix2 (1 : Fin 2) e :=
  funext fun a => Fin.ext (by
    match a with
    | ⟨0, _⟩ => rfl
    | ⟨1, _⟩ => exact Nat.mod_eq_of_lt e.isLt)

/-- A vector made a column reads its own entry. -/
theorem idx_col9 (e : Fin 1000000) (z : Fin 1) : Read.idx_main_v9 (ix2 e z) = ix1 e :=
  funext fun a => Fin.ext (by match a with | ⟨0, _⟩ => rfl)

theorem idx_col15 (e : Fin 1000000) (z : Fin 1) : Read.idx_main_v15 (ix2 e z) = ix1 e :=
  funext fun a => Fin.ext (by match a with | ⟨0, _⟩ => rfl)

theorem idx_col18 (v : Fin 100000) (z : Fin 1) : Read.idx_main_v18 (ix2 v z) = ix1 v :=
  funext fun a => Fin.ext (by match a with | ⟨0, _⟩ => rfl)

theorem idx_col22 (v : Fin 100000) (z : Fin 1) : Read.idx_main_v22 (ix2 v z) = ix1 v :=
  funext fun a => Fin.ext (by match a with | ⟨0, _⟩ => rfl)

/-- The edge weights spread over the 64 features read the weight of the edge. -/
theorem idx_attr (e : Fin 1000000) (k : Fin 64) : Read.idx_main_v11 (Read.idx_main_v12 (ix2 e k)) = ix1 e :=
  funext fun a => Fin.ext (by match a with | ⟨0, _⟩ => rfl)

/-- The divisor spread over the 64 features reads the divisor of the graph. -/
theorem idx_den (g : Fin 512) (k : Fin 64) : Read.idx_main_v26 (Read.idx_main_v27 (ix2 g k)) = ix1 g :=
  funext fun a => Fin.ext (by match a with | ⟨0, _⟩ => rfl)

/-- The left factor of the contraction at `(g, ·)`, term `k`. -/
theorem idx_lhs (g : Fin 512) (z : Fin 1) (k : Fin 64) : Read.lidx_main_v30 (ix2 g z) k = ix2 g k :=
  funext fun a => Fin.ext (by
    match a with
    | ⟨0, _⟩ => rfl
    | ⟨1, _⟩ => rfl)

/-- The right factor of the contraction: the transposed weights read the weights at `(0, k)`. -/
theorem idx_rhs (g : Fin 512) (k : Fin 64) :
    Read.idx_main_v29 (Read.ridx_main_v30 (ix2 g (0 : Fin 1)) k) = ix2 (0 : Fin 1) k :=
  funext fun a => Fin.ext (by
    match a with
    | ⟨0, _⟩ => rfl
    | ⟨1, _⟩ => rfl)

/-- The bias spread over the graphs reads the one bias. -/
theorem idx_bias (g : Fin 512) (z : Fin 1) : Read.idx_main_v31 (Read.idx_main_v32 (ix2 g z)) = ix1 (0 : Fin 1) :=
  funext fun a => Fin.ext (by match a with | ⟨0, _⟩ => rfl)

/-! ## The source column -/

/-- A word that reads as a non-negative integer is not below zero. -/
theorem cmpi_slt_zero_of_nonneg (w : BitVec 32) (h : 0 ≤ w.toInt) : IntOp.cmpi .slt w 0#32 = 0#1 := by
  have hs : w.slt 0#32 = false := by
    rw [BitVec.slt_eq_decide, BitVec.toInt_zero]
    exact decide_eq_false (by omega)
  unfold IntOp.cmpi
  simp only [hs, BitVec.ofBool_false]
  rfl

/-- The wrapped source of edge `e` is the source itself: a node index is not negative. -/
theorem v8_at (x1 : IVec SEI 32) (hin : InRange x1) (e : Fin 1000000) :
    Read.val_main_v8 (F := Ideal) x1 (ix1 e) = x1 (ix2 0 e) := by
  rw [Read.val_main_v8_apply, Read.val_main_v5_apply, Read.val_main_v4_apply, Read.val_main_c_apply,
    Read.val_main_v1_apply, Read.val_main_v0_apply, idx_row0, cmpi_slt_zero_of_nonneg _ (hin 0 e).1, select_zero]

theorem v9_at (x1 : IVec SEI 32) (hin : InRange x1) (e : Fin 1000000) :
    Read.val_main_v9 (F := Ideal) x1 (ix2 e (0 : Fin 1)) = x1 (ix2 0 e) := by
  rw [Read.val_main_v9_apply, idx_col9, v8_at x1 hin]

/-! ## The messages and the two scatters -/

/-- The gathered row of edge `e` is the row of its source node. -/
theorem v10_at (x0 : SX.Idx → EReal) (x1 : IVec SEI 32) (hin : InRange x1) (e : Fin 1000000) (k : Fin 64) :
    Read.val_main_v10 (F := Ideal) x0 x1 (ix2 e k) = x0 (ix2 (srcOf x1 e) k) := by
  unfold Read.val_main_v10
  rw [gather_rows_apply (N := 100000) (M := 1000000) (D := 64) (by decide) _ rfl rfl rfl rfl rfl rfl rfl]
  refine congrArg x0 (congrArg (fun n => ix2 n k) (Fin.ext ?_))
  show min (Read.val_main_v9 (F := Ideal) x1 (ix2 e (0 : Fin 1))).toInt.toNat 99999
    = min (x1 (ix2 0 e)).toInt.toNat 99999
  rw [v9_at x1 hin e]

/-- The message of edge `e`, feature `k`: the source's feature times the edge weight. -/
theorem v13_at (x0 : SX.Idx → EReal) (x1 : IVec SEI 32) (x2 : SE.Idx → EReal) (hin : InRange x1)
    (e : Fin 1000000) (k : Fin 64) :
    Read.val_main_v13 (F := Ideal) x0 x1 x2 (ix2 e k) = x0 (ix2 (srcOf x1 e) k) * x2 (ix1 e) := by
  rw [Read.val_main_v13_apply, v10_at x0 x1 hin, Read.val_main_v12_apply, Read.val_main_v11_apply, idx_attr]
  rfl

theorem v15_at (x1 : IVec SEI 32) (e : Fin 1000000) :
    Read.val_main_v15 (F := Ideal) x1 (ix2 e (0 : Fin 1)) = x1 (ix2 1 e) := by
  rw [Read.val_main_v15_apply, idx_col15, Read.val_main_v3_apply, Read.val_main_v2_apply, idx_row1]

/-- The edge scatter as the exact accumulation. -/
theorem v16_eq (x0 : SX.Idx → EReal) (x1 : IVec SEI 32) (x2 : SE.Idx → EReal) :
    Read.val_main_v16 (F := Ideal) x0 x1 x2
      = Ideal.hostScatterAdd scatter_S100000x64_S1000000x1_S1000000x64_1_0_0_1 (Read.val_main_v14 (F := Ideal))
          (Read.val_main_v15 (F := Ideal) x1) (Read.val_main_v13 (F := Ideal) x0 x1 x2) := rfl

/-- The messages scattered onto the nodes. -/
theorem v16_at (x0 : SX.Idx → EReal) (x1 : IVec SEI 32) (x2 : SE.Idx → EReal) (hin : InRange x1)
    (v : Fin 100000) (k : Fin 64) :
    Read.val_main_v16 (F := Ideal) x0 x1 x2 (ix2 v k) = agg x0 x1 x2 v k := by
  rw [v16_eq, scatterAdd_rows_apply (N := 100000) (M := 1000000) (D := 64) _ rfl rfl rfl rfl,
    Read.val_main_v14_apply, Read.val_main_cst_apply, Ideal.ofBits_def, Ideal.ofBits_zero_f32, zero_add]
  unfold agg
  exact Finset.sum_congr (Finset.filter_congr fun e _ => by rw [v15_at]) (fun e _ => v13_at x0 x1 x2 hin e k)

theorem v18_at (x3 : IVec SN 32) (v : Fin 100000) :
    Read.val_main_v18 (F := Ideal) x3 (ix2 v (0 : Fin 1)) = x3 (ix1 v) := by
  rw [Read.val_main_v18_apply, idx_col18]

/-- The node scatter as the exact accumulation. -/
theorem v19_eq (x0 : SX.Idx → EReal) (x1 : IVec SEI 32) (x2 : SE.Idx → EReal) (x3 : IVec SN 32) :
    Read.val_main_v19 (F := Ideal) x0 x1 x2 x3
      = Ideal.hostScatterAdd scatter_S512x64_S100000x1_S100000x64_1_0_0_1 (Read.val_main_v17 (F := Ideal))
          (Read.val_main_v18 (F := Ideal) x3) (Read.val_main_v16 (F := Ideal) x0 x1 x2) := rfl

/-- The nodes' totals scattered onto the graphs. -/
theorem v19_at (x0 : SX.Idx → EReal) (x1 : IVec SEI 32) (x2 : SE.Idx → EReal) (x3 : IVec SN 32) (hin : InRange x1)
    (g : Fin 512) (k : Fin 64) :
    Read.val_main_v19 (F := Ideal) x0 x1 x2 x3 (ix2 g k) = sums x0 x1 x2 x3 g k := by
  rw [v19_eq, scatterAdd_rows_apply (N := 512) (M := 100000) (D := 64) _ rfl rfl rfl rfl,
    Read.val_main_v17_apply, Read.val_main_cst_1_apply, Ideal.ofBits_def, Ideal.ofBits_zero_f32, zero_add]
  unfold sums
  exact Finset.sum_congr (Finset.filter_congr fun v _ => by rw [v18_at]) (fun v _ => v16_at x0 x1 x2 hin v k)

theorem v22_at (x3 : IVec SN 32) (v : Fin 100000) :
    Read.val_main_v22 (F := Ideal) x3 (ix2 v (0 : Fin 1)) = x3 (ix1 v) := by
  rw [Read.val_main_v22_apply, idx_col22]

/-- The count scatter as the exact accumulation. -/
theorem v23_eq (x3 : IVec SN 32) :
    Read.val_main_v23 (F := Ideal) x3
      = Ideal.hostScatterAdd scatter_S512_S100000x1_S100000_n_0_0_1 (Read.val_main_v21 (F := Ideal))
          (Read.val_main_v22 (F := Ideal) x3) (Read.val_main_v20 (F := Ideal)) := rfl

/-- The ones scattered onto the graphs: the node count. -/
theorem v23_at (x3 : IVec SN 32) (g : Fin 512) :
    Read.val_main_v23 (F := Ideal) x3 (ix1 g) = cnt x3 g := by
  rw [v23_eq, scatterAdd_flat_apply (N := 512) (M := 100000) _ rfl rfl rfl rfl,
    Read.val_main_v21_apply, Read.val_main_cst_3_apply, Ideal.ofBits_def, Ideal.ofBits_zero_f32, zero_add]
  unfold cnt
  exact Finset.sum_congr (Finset.filter_congr fun v _ => by rw [v22_at]) (fun v _ => by
    rw [Read.val_main_v20_apply, Read.val_main_cst_2_apply, Ideal.ofBits_def, Ideal.ofBits_one_f32])

/-- The divisor of graph `g`. -/
theorem v25_at (x3 : IVec SN 32) (g : Fin 512) :
    Read.val_main_v25 (F := Ideal) x3 (ix1 g) = den x3 g := by
  rw [Read.val_main_v25_apply, v23_at, Read.val_main_v24_apply, Read.val_main_cst_4_apply, Ideal.ofBits_def,
    Ideal.ofBits_one_f32]
  rfl

/-- The pooled mean of graph `g`, feature `k`. -/
theorem v28_at (x0 : SX.Idx → EReal) (x1 : IVec SEI 32) (x2 : SE.Idx → EReal) (x3 : IVec SN 32) (hin : InRange x1)
    (g : Fin 512) (k : Fin 64) :
    Read.val_main_v28 (F := Ideal) x0 x1 x2 x3 (ix2 g k) = Ideal.div (sums x0 x1 x2 x3 g k) (den x3 g) := by
  rw [Read.val_main_v28_apply, v19_at x0 x1 x2 x3 hin, Read.val_main_v27_apply, Read.val_main_v26_apply, idx_den,
    v25_at]
  rfl

/-! ## The result -/

/-- With every edge end point a node index, the reference's last stage is `refOut` of the six inputs. -/
theorem result_eq (x0 : SX.Idx → EReal) (x1 : IVec SEI 32) (x2 : SE.Idx → EReal) (x3 : IVec SN 32)
    (x4 : SW.Idx → EReal) (x5 : SB.Idx → EReal) (hin : InRange x1) :
    Cert.ReferenceIdeal.Read.val_main_v33 (F := Ideal) x0 x1 x2 x3 x4 x5 = refOut x0 x1 x2 x3 x4 x5 := by
  funext i
  obtain ⟨g, z, rfl⟩ : ∃ (g : Fin 512) (z : Fin 1), i = ix2 g z := ⟨i 0, i 1, eq_ix2 i⟩
  obtain rfl : z = 0 := Subsingleton.elim _ _
  rw [Read.val_main_v33_apply, Read.val_main_v30_apply, Read.val_main_v32_apply, Read.val_main_v31_apply, idx_bias]
  unfold refOut
  refine congrArg (· + x5 (ix1 0)) (Finset.sum_congr rfl fun k _ => ?_)
  rw [idx_lhs, v28_at x0 x1 x2 x3 hin, Read.val_main_v29_apply, idx_rhs]

end Cert.RefValue

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.KernelPrefix.lean ====
/-
  What the host code before the kernel leaves in the kernel's three input arrays and in the node-count vector:
  the padded row of edge scalars, the padded row of correction terms, the padded row of graph labels, and the
  count of nodes per graph.

  Each array is first written as the composition of the host operations that produce it, over the argument buffers;
  that composition is then read at one index. Every edge end point is assumed to name a node, so the take's mask is
  all ones, its wrap of negative positions does nothing, and the gathers' clamps are the clamps of the specification.
-/
import proofs.«403148_j5978594476679_3_alg».proof.Proof.Gen.KernelIdeal.Frame
import proofs.«403148_j5978594476679_3_alg».proof.Proof.Spec
import proofs.«403148_j5978594476679_3_alg».proof.Proof.LibScatterRead
import proofs.«403148_j5978594476679_3_alg».proof.Proof.LibTRef
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.Lib.StableHlo.Predicate
import Idealize.ShloMosaic.PureOps.Ideal.Laws
import Idealize.ShloMosaic.Lib.KernelVsHost
import Idealize.ShloMosaic.Lib.Affine

noncomputable section

namespace Cert.KernelPrefix

open Idealize.ShloMosaic Idealize.ShloMosaic.TcCoe Idealize.ShloMosaic.ValueIdx Idealize.SL.Sem Cert.KernelIdeal Cert.KernelIdeal.Gen GnnPool

variable [Cert.KernelIdeal.Facts]
variable (m : (ℓ : Loc nD τ sig) → Buf (Elt Ideal) ℓ)

/-! ## Indices in their two spellings, and a vector kept as a column -/

/-- The rank-1 index at a coordinate, in its two spellings. -/
theorem ofFin_eq_ix1 {n : Nat} (k : Fin n) : Shape.Idx.ofFin k = ix1 k := by
  funext a; match a with | ⟨0, _⟩ => exact Fin.ext rfl

/-- Row `p` of a one-column table, in its two spellings. -/
theorem ixP_eq_ix2 {n : Nat} (p : Fin n) : StableHlo.Predicate.ixP p = ix2 p (0 : Fin 1) := by
  funext a; match a with | ⟨0, _⟩ => rfl | ⟨1, _⟩ => rfl

/-- A vector kept as a one-column table reads, at row `p`, the vector at `p`. -/
theorem bcast_col_ix {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← ixP_eq_ix2, StableHlo.Predicate.bcast_col1, ofFin_eq_ix1]

/-! ## The pieces of the host computation, named -/

/-- One row of the edge table as a flat vector of words (row 0 the sources, row 1 the targets). -/
abbrev eiRow (r : Nat) (hs : S2x1000000.Slices ![r, 0] S1x1000000) (ei : IVec S2x1000000 32) : IVec S1000000 32 :=
  shapeCast S1000000 (extractStridedSlice S1x1000000 ![r, 0] ei hs) shapeCasts_S1x1000000_S1000000

/-- A vector of node indices with the negative ones moved up by the number of nodes (an index counted from the end). -/
abbrev wrapIdx (v : IVec S1000000 32) : IVec S1000000 32 :=
  select (cmpi CmpIPredicate.slt v (broadcastInDim S1000000 ![] bcast_S_S1000000 (constantI S_ 32 0#32)))
    (addi v (broadcastInDim S1000000 ![] bcast_S_S1000000 (constantI S_ 32 100000#32))) v

/-- The nodes' features contracted with the weights, as the host forms it: the weights reshaped to a column, the
    product, the column flattened. -/
abbrev xwVec (x : FVec Ideal S100000x64 .f32) (W : FVec Ideal S1x64 .f32) : FVec Ideal S100000 .f32 :=
  shapeCast S100000
    (Host.dotGeneral dot_S100000x64_S64x1_S100000x1_1_0_0_1_n_n none x (shapeCast S64x1 W shapeCasts_S1x64_S64x1))
    shapeCasts_S100000x1_S100000

/-- The mask of the positions that lie in the table, 0 ≤ p ≤ 99999, row by row of the one-column table. -/
abbrev inTable (p : IVec S1000000x1 32) : IVec S1000000 1 :=
  Host.reduce IntOp.andi
    (andi (cmpi CmpIPredicate.sge p (broadcastInDim S1000000x1 ![] bcast_S_S1000000x1 (constantI S_ 32 0#32)))
      (cmpi CmpIPredicate.sle p
        (broadcastInDim S1000000x1 ![0, 1] bcast_S1x1_S1000000x1_0_1
          (broadcastInDim S1x1 ![1] bcast_S1_S1x1_1 (constantI S1 32 99999#32)))))
    (constantI S_ 1 1#1) reducesTo_S1000000x1_S1000000_d1 h_S_

/-- The take of a table at a vector of positions: wrapped, gathered, and a fixed pattern where a position is outside. -/
abbrev takeVec (t : FVec Ideal S100000 .f32) (v : IVec S1000000 32) : FVec Ideal S1000000 .f32 :=
  select (inTable (broadcastInDim S1000000x1 ![0] bcast_S1000000_S1000000x1_0 (wrapIdx v)))
    (Host.gather gather_S100000_S1000000x1_S1000000_n_0_n_n_0_1_1 t
      (broadcastInDim S1000000x1 ![0] bcast_S1000000_S1000000x1_0 (wrapIdx v)))
    (broadcastInDim S1000000 ![] bcast_S_S1000000 (constant (F := Ideal) S_ .f32 0x7FC00000#32))

/-- The vector of edge scalars as the host forms it. -/
abbrev msgVec (x : FVec Ideal S100000x64 .f32) (ei : IVec S2x1000000 32) (ea : FVec Ideal S1000000 .f32)
    (W : FVec Ideal S1x64 .f32) : FVec Ideal S1000000 .f32 :=
  mulf ea (takeVec (xwVec x W) (eiRow 0 slices_S2x1000000_S1x1000000_0_0 ei))

/-- A vector of edge values as a row, padded with the converted integer zero to the 62 blocks. -/
abbrev padRow (v : FVec Ideal S1000000 .bf16) : FVec Ideal S1x1015808 .bf16 :=
  pad S1x1015808 ![0, 0] ![0, 15808] ![0, 0] (shapeCast S1x1000000 v shapeCasts_S1000000_S1x1000000)
    (sitofp .bf16 (constantI S_ 32 0#32)) pads_S1x1000000_S1x1015808_000_0158080 h_S_

/-! ## The pieces read at an index -/

/-- A row of the edge table, flattened, read at an edge. -/
theorem eiRow_apply (r : Nat) (hr : r < 2) (hs : S2x1000000.Slices ![r, 0] S1x1000000) (ei : IVec S2x1000000 32)
    (e : Fin 1000000) : eiRow r hs ei (ix1 e) = ei (ix2 (⟨r, hr⟩ : Fin 2) e) := by
  refine (shapeCast_1a_a_apply _ _ e).trans ?_
  exact extractStridedSlice_apply _ _ _ _ (ix2 (⟨r, hr⟩ : Fin 2) e) (fun a => match a with
    | ⟨0, _⟩ => by show r = r + 0; omega
    | ⟨1, _⟩ => by show e.val = 0 + e.val; omega)

/-- A non-negative index is left where it is. -/
theorem wrapIdx_apply (v : IVec S1000000 32) (e : Fin 1000000) (h : 0 ≤ (v (ix1 e)).toInt) :
    wrapIdx v (ix1 e) = v (ix1 e) := by
  show Scalar.select (IntOp.cmpi .slt (v (ix1 e)) (broadcastInDim S1000000 ![] bcast_S_S1000000 (constantI S_ 32 0#32) (ix1 e))) _ _ = _
  rw [broadcastInDim_scalar_apply, constantI_apply]
  have hc : IntOp.cmpi .slt (v (ix1 e)) 0#32 = 0#1 := eq_zero_of_ne_one (fun h1 => by
    have h2 := IntOp.cmpi_slt.mp h1
    rw [show (0#32 : BitVec 32).toInt = 0 from by decide] at h2
    omega)
  rw [hc, select_zero]

/-- The gather of a flat table at a one-column table of positions, read at a position: the table at the position's
    word read signed and clamped into the table. -/
theorem gather_ix {α : Type} (x : S100000.Idx → α) (idx : IVec S1000000x1 32) (e : Fin 1000000) (n : Fin 100000)
    (hn : n.val = min (idx (ix2 e (0 : Fin 1))).toInt.toNat 99999) :
    Host.gather gather_S100000_S1000000x1_S1000000_n_0_n_n_0_1_1 x idx (ix1 e) = x (ix1 n) := by
  rw [← ofFin_eq_ix1, StableHlo.Predicate.gather_take gather_S100000_S1000000x1_S1000000_n_0_n_n_0_1_1 rfl rfl rfl rfl x idx e (by decide),
    ofFin_eq_ix1]
  refine congrArg (fun k => x (ix1 k)) (Fin.ext ?_)
  show min (idx (StableHlo.Predicate.ixP e)).toInt.toNat (100000 - 1) = n.val
  rw [ixP_eq_ix2, hn]

/-- The wrapped row of end points kept as a one-column table reads, at an edge whose end point is no negative word,
    the end point. -/
theorem col_wrap_apply (r : Nat) (hr : r < 2) (hs : S2x1000000.Slices ![r, 0] S1x1000000) (ei : IVec S2x1000000 32)
    (e : Fin 1000000) (h : 0 ≤ (ei (ix2 (⟨r, hr⟩ : Fin 2) e)).toInt) :
    broadcastInDim S1000000x1 ![0] bcast_S1000000_S1000000x1_0 (wrapIdx (eiRow r hs ei)) (ix2 e (0 : Fin 1))
      = ei (ix2 (⟨r, hr⟩ : Fin 2) e) := by
  rw [bcast_col_ix, wrapIdx_apply _ _ (by rw [eiRow_apply r hr]; exact h), eiRow_apply r hr]

/-- A left fold by `and` over one-bit words that are all 1, started at 1, is 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    have e : IntOp.andi (1#1) (1#1) = 1#1 := by decide
    rw [List.foldl_cons, h a (List.mem_cons.2 (Or.inl rfl)), e]
    exact foldl_andi_all_one f l (fun n hn => h n (List.mem_cons.2 (Or.inr hn)))

/-- Every position lies in the table when every word of the one-column table, read signed, is in [0, 99999]. -/
theorem inTable_apply (p : IVec S1000000x1 32) (e : Fin 1000000)
    (h0 : ∀ i, 0 ≤ (p i).toInt) (h1 : ∀ i, (p i).toInt ≤ 99999) : inTable p (ix1 e) = 1#1 := by
  show Host.reduce IntOp.andi _ _ _ _ (ix1 e) = 1#1
  rw [Host.reduce_eq_foldl]
  refine foldl_andi_all_one _ _ (fun i _ => ?_)
  show IntOp.andi (IntOp.cmpi .sge (p i) 0#32) (IntOp.cmpi .sle (p i) 99999#32) = 1#1
  have z : (0#32 : BitVec 32).toInt = 0 := by decide
  have t : (99999#32 : BitVec 32).toInt = 99999 := by decide
  rw [IntOp.cmpi_sge.mpr (by rw [z]; exact h0 i), IntOp.cmpi_sle.mpr (by rw [t]; exact h1 i)]
  decide

/-- The take at an edge whose source is a node: the table at the source. -/
theorem takeVec_apply (t : FVec Ideal S100000 .f32) (ei : IVec S2x1000000 32) (hin : InRange ei) (e : Fin 1000000) :
    takeVec t (eiRow 0 slices_S2x1000000_S1x1000000_0_0 ei) (ix1 e) = t (ix1 (srcOf ei e)) := by
  have hp : ∀ i : S1000000x1.Idx,
      broadcastInDim S1000000x1 ![0] bcast_S1000000_S1000000x1_0 (wrapIdx (eiRow 0 slices_S2x1000000_S1x1000000_0_0 ei)) i
        = ei (ix2 (0 : Fin 2) (i 0)) := fun i => by
    obtain ⟨a, b, rfl⟩ : ∃ (a : Fin 1000000) (b : Fin 1), i = ix2 a b := ⟨i 0, i 1, eq_ix2 i⟩
    obtain rfl : b = 0 := Subsingleton.elim _ _
    exact col_wrap_apply 0 (by decide) _ _ a (hin 0 a).1
  show Scalar.select (inTable _ (ix1 e)) (Host.gather _ t _ (ix1 e)) _ = _
  rw [inTable_apply _ e (fun i => by rw [hp i]; exact (hin 0 _).1) (fun i => by rw [hp i]; have := (hin 0 (i 0)).2; omega), select_one]
  exact gather_ix _ _ _ (srcOf ei e) (by rw [hp]; rfl)

/-- The product's left operand index keeps the result's row. -/
theorem dot_lhs_row (j : S100000x1.Idx) (q : dot_S100000x64_S64x1_S100000x1_1_0_0_1_n_n.contr.Idx) :
    (dot_S100000x64_S64x1_S100000x1_1_0_0_1_n_n.lhsIdx j q 0).val = (j 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl

/-- The product's right operand index keeps the result's column. -/
theorem dot_rhs_col (j : S100000x1.Idx) (q : dot_S100000x64_S64x1_S100000x1_1_0_0_1_n_n.contr.Idx) :
    (dot_S100000x64_S64x1_S100000x1_1_0_0_1_n_n.rhsIdx j q 1).val = (j 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- The host's product of the features with the weights' column, read at a node: the contraction over the 64 features. -/
theorem xwVec_apply (x : FVec Ideal S100000x64 .f32) (W : FVec Ideal S1x64 .f32) (n : Fin 100000) :
    xwVec x W (ix1 n) = xw x W n := by
  refine (shapeCast_apply _ _ (ix1 n) (ix2 n (0 : Fin 1)) (by
    rw [Shape.rowMajor_val_two, Shape.rowMajor_val_one]; show n.val * 1 + 0 = n.val; omega)).trans ?_
  simp only [Host.dotGeneral]
  rw [Ideal.dotGeneral_apply, ← Equiv.sum_comp (contrEquiv1 dot_S100000x64_S64x1_S100000x1_1_0_0_1_n_n 64 rfl rfl).symm]
  unfold xw
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 n (0 : Fin 1))
      ((contrEquiv1 dot_S100000x64_S64x1_S100000x1_1_0_0_1_n_n 64 rfl rfl).symm k) = ix2 n k := funext fun a => Fin.ext (by
    match a with
    | ⟨0, _⟩ => exact dot_lhs_row _ _
    | ⟨1, _⟩ => exact (dot_S100000x64_S64x1_S100000x1_1_0_0_1_n_n.lhsIdx_val_of_single rfl _ _).trans hk)
  have er : dot_S100000x64_S64x1_S100000x1_1_0_0_1_n_n.rhsIdx (ix2 n (0 : Fin 1))
      ((contrEquiv1 dot_S100000x64_S64x1_S100000x1_1_0_0_1_n_n 64 rfl rfl).symm k) = ix2 k (0 : Fin 1) := funext fun a => Fin.ext (by
    match a with
    | ⟨0, _⟩ => exact (dot_S100000x64_S64x1_S100000x1_1_0_0_1_n_n.rhsIdx_val_of_single rfl _ _).trans hk
    | ⟨1, _⟩ => exact dot_rhs_col _ _)
  rw [el, er]
  refine congrArg (x (ix2 n k) * ·) ?_
  exact shapeCast_apply _ _ (ix2 k (0 : Fin 1)) (ix2 (0 : Fin 1) k) (by
    rw [Shape.rowMajor_val_two, Shape.rowMajor_val_two]; show 0 * 64 + k.val = k.val * 1 + 0; omega)

/-- The host's vector of edge scalars at an edge. -/
theorem msgVec_apply (x : FVec Ideal S100000x64 .f32) (ei : IVec S2x1000000 32) (ea : FVec Ideal S1000000 .f32)
    (W : FVec Ideal S1x64 .f32) (hin : InRange ei) (e : Fin 1000000) :
    msgVec x ei ea W (ix1 e) = msg x ei ea W e := by
  show ea (ix1 e) * takeVec (xwVec x W) (eiRow 0 slices_S2x1000000_S1x1000000_0_0 ei) (ix1 e) = _
  rw [takeVec_apply _ _ hin, xwVec_apply]
  rfl

/-! ## The node count -/

/-- The node count as the host forms it: ones scattered and added onto zeros at the nodes' labels. -/
theorem cnt_raw (c : Dev nD) :
    (V m c main_v14 : (⟨1, ![512]⟩ : Shape).Idx → EReal) =
      Host.scatterAdd scatter_S512_S100000x1_S100000_n_0_0_1
        (broadcastInDim S512 ![] bcast_S_S512 (constant (F := Ideal) S_ FTy.f32 0x00000000#32))
        (broadcastInDim S100000x1 ![0] bcast_S100000_S100000x1_0 (m ((c.tc : Thread nD τ).loc main_arg3)))
        (broadcastInDim S100000 ![] bcast_S_S100000 (constant (F := Ideal) S_ FTy.f32 0x3F800000#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp

/-- The node count per graph, as the host computes it before the kernel. -/
theorem V_cnt (c : Dev nD) :
    (V m c main_v14 : (⟨1, ![512]⟩ : Shape).Idx → EReal) = fun i => cnt (m ((c.tc : Thread nD τ).loc main_arg3)) (i 0) := by
  rw [cnt_raw]
  funext i
  obtain ⟨g, rfl⟩ : ∃ g : Fin 512, i = ix1 g := ⟨i 0, eq_ix1 i⟩
  refine (ScatterRead.scatterAdd_flat_apply (N := 512) (M := 100000) scatter_S512_S100000x1_S100000_n_0_0_1 rfl rfl rfl rfl _ _ _ g).trans ?_
  rw [broadcastInDim_scalar_apply, constant_apply, Ideal.ofBits_zero_f32, zero_add]
  show _ = cnt _ g
  unfold cnt
  have hb : ∀ v : Fin 100000, broadcastInDim S100000x1 ![0] bcast_S100000_S100000x1_0 (m ((c.tc : Thread nD τ).loc main_arg3)) (ix2 v (0 : Fin 1))
      = m ((c.tc : Thread nD τ).loc main_arg3) (ix1 v) := fun v => bcast_col_ix _ _ v
  have h1 : ∀ v : Fin 100000, broadcastInDim S100000 ![] bcast_S_S100000 (constant (F := Ideal) S_ FTy.f32 0x3F800000#32) (ix1 v) = (1 : EReal) :=
    fun v => by rw [broadcastInDim_scalar_apply, constant_apply, Ideal.ofBits_one_f32]
  simp only [hb, h1]

/-! ## The row of graph labels -/

/-- The row of graph labels as the host forms it: the labels gathered at the wrapped targets, as a row, padded with the
    word zero. -/
theorem gid_raw (c : Dev nD) :
    (V m c main_v29 : IVec SP 32) =
      pad S1x1015808 ![0, 0] ![0, 15808] ![0, 0]
        (shapeCast S1x1000000
          (Host.gather gather_S100000_S1000000x1_S1000000_n_0_n_n_0_1_1 (m ((c.tc : Thread nD τ).loc main_arg3))
            (broadcastInDim S1000000x1 ![0] bcast_S1000000_S1000000x1_0
              (wrapIdx (eiRow 1 slices_S2x1000000_S1x1000000_1_0 (m ((c.tc : Thread nD τ).loc main_arg1))))))
          shapeCasts_S1000000_S1x1000000)
        (constantI S_ 32 0#32) pads_S1x1000000_S1x1015808_000_0158080 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  rfl

/-- The third window's array: the padded row of graph labels. -/
theorem V_gid (c : Dev nD) (hin : InRange (m ((c.tc : Thread nD τ).loc main_arg1))) :
    (V m c main_v29 : IVec SP 32) = gidP (m ((c.tc : Thread nD τ).loc main_arg1)) (m ((c.tc : Thread nD τ).loc main_arg3)) := by
  rw [gid_raw]
  funext i
  obtain ⟨u, j, rfl⟩ : ∃ (u : Fin 1) (j : Fin 1015808), i = ix2 u j := ⟨i 0, i 1, eq_ix2 i⟩
  unfold gidP
  show _ = if h : j.val < 1000000 then _ else _
  by_cases h : j.val < 1000000
  · rw [dif_pos h]
    refine (pad_apply_of_inside _ _ _ _ _ _ _ (ix2 u j) (ix2 (0 : Fin 1) (⟨j.val, h⟩ : Fin 1000000)) (fun a => match a with
      | ⟨0, _⟩ => by show u.val = 0 + 0 * (0 + 1); omega
      | ⟨1, _⟩ => by show j.val = 0 + j.val * (0 + 1); omega)).trans ?_
    rw [shapeCast_a_1a_apply]
    refine gather_ix _ _ _ (dstOf (m ((c.tc : Thread nD τ).loc main_arg1)) ⟨j.val, h⟩) ?_
    rw [col_wrap_apply 1 (by decide) _ _ _ (hin 1 _).1]
    rfl
  · rw [dif_neg h]
    refine (pad_apply_of_not_inside _ _ _ _ _ _ _ (ix2 u j) (1 : Fin 2) (fun hc => h ?_)).trans ?_
    · have h3 := hc.2.2
      change (j.val - 0) / (0 + 1) < 1000000 at h3
      omega
    · rfl

/-! ## The two rows of edge values: the padding calls run from the contents before them -/

/-- The buffer contents after the host operations before the three padding calls. -/
abbrev Vp (c : Dev nD) : Valuation τ sig (Elt Ideal) :=
  StableHlo.after hostOps0_2 (StableHlo.after hostOps0_1 (StableHlo.after hostOps0 (fun b => m (c, b))))

/-- The five stretches of the three padding calls, run from any buffer contents. -/
abbrev afterPads (W : Valuation τ sig (Elt Ideal)) : Valuation τ sig (Elt Ideal) :=
  StableHlo.after hostOps0_7 (StableHlo.after hostOps0_6 (StableHlo.after hostOps0_5 (StableHlo.after hostOps0_4 (StableHlo.after hostOps0_3 W))))

/-- The contents when the region is entered: the padding calls run from the contents before them. -/
theorem V_split (c : Dev nD) (b : Ref sig .tc) : V m c b = afterPads (Vp m c) (Proc.devRef .tc b) := by
  dsimp only [Gen.V, Gen.V0, afterPads, Vp]
  simp only [List.flatten_cons, List.flatten_nil, List.append_nil, StableHlo.after_append]

/-- The first padding call pads the row it is given with the converted integer constant. -/
theorem tail_hi (W : Valuation τ sig (Elt Ideal)) :
    (afterPads W (Proc.devRef .tc main_v27) : SP.Idx → EReal)
      = pad S1x1015808 ![0, 0] ![0, 15808] ![0, 0] (W (Proc.devRef .tc main_v24) : FVec Ideal S1x1000000 .bf16)
          (sitofp (F := Ideal) .bf16 (W (Proc.devRef .tc main_c_2) : IVec S_ 32)) pads_S1x1000000_S1x1015808_000_0158080 h_S_ := by
  dsimp only [afterPads]
  simp only [Gen.hostOps0_3, Gen.hostOps0_4, Gen.hostOps0_5, Gen.hostOps0_6, Gen.hostOps0_7]
  after_results_simp
  simp only [StableHlo.TRef.ofBuf_toBuf]
  simp only [StableHlo.TRef.ofBuf, StableHlo.TRef.toBuf, cast_eq]

/-- The second padding call, likewise. -/
theorem tail_lo (W : Valuation τ sig (Elt Ideal)) :
    (afterPads W (Proc.devRef .tc main_v28) : SP.Idx → EReal)
      = pad S1x1015808 ![0, 0] ![0, 15808] ![0, 0] (W (Proc.devRef .tc main_v25) : FVec Ideal S1x1000000 .bf16)
          (sitofp (F := Ideal) .bf16 (constantI S_ 32 0#32)) pads_S1x1000000_S1x1015808_000_0158080 h_S_ := by
  dsimp only [afterPads]
  simp only [Gen.hostOps0_3, Gen.hostOps0_4, Gen.hostOps0_5, Gen.hostOps0_6, Gen.hostOps0_7]
  after_results_simp
  simp only [StableHlo.TRef.ofBuf_toBuf]
  simp only [StableHlo.TRef.ofBuf, StableHlo.TRef.toBuf, cast_eq]

/-- The edge scalars as a row, before the padding. -/
theorem vp_hi (c : Dev nD) :
    (Vp m c (Proc.devRef .tc main_v24) : FVec Ideal S1x1000000 .bf16)
      = shapeCast S1x1000000 (truncf .bf16 (msgVec (m ((c.tc : Thread nD τ).loc main_arg0)) (m ((c.tc : Thread nD τ).loc main_arg1)) (m ((c.tc : Thread nD τ).loc main_arg2)) (m ((c.tc : Thread nD τ).loc main_arg4))) bitsLt_bf16_f32) shapeCasts_S1000000_S1x1000000 := by
  dsimp only [Vp]
  simp only [Gen.hostOps0, Gen.hostOps0_1, Gen.hostOps0_2]
  after_results_simp
  try simp only [StableHlo.TRef.ofBuf_toBuf]
  try simp only [StableHlo.TRef.ofBuf, StableHlo.TRef.toBuf, cast_eq]
  rfl

/-- The correction terms as a row, before the padding. -/
theorem vp_lo (c : Dev nD) :
    (Vp m c (Proc.devRef .tc main_v25) : FVec Ideal S1x1000000 .bf16)
      = shapeCast S1x1000000 (truncf .bf16 (subf (msgVec (m ((c.tc : Thread nD τ).loc main_arg0)) (m ((c.tc : Thread nD τ).loc main_arg1)) (m ((c.tc : Thread nD τ).loc main_arg2)) (m ((c.tc : Thread nD τ).loc main_arg4)))
          (extf .f32 (truncf .bf16 (msgVec (m ((c.tc : Thread nD τ).loc main_arg0)) (m ((c.tc : Thread nD τ).loc main_arg1)) (m ((c.tc : Thread nD τ).loc main_arg2)) (m ((c.tc : Thread nD τ).loc main_arg4))) bitsLt_bf16_f32) bitsLt_bf16_f32)) bitsLt_bf16_f32) shapeCasts_S1000000_S1x1000000 := by
  dsimp only [Vp]
  simp only [Gen.hostOps0, Gen.hostOps0_1, Gen.hostOps0_2]
  after_results_simp
  try simp only [StableHlo.TRef.ofBuf_toBuf]
  try simp only [StableHlo.TRef.ofBuf, StableHlo.TRef.toBuf, cast_eq]
  rfl

/-- The integer constants the padding calls convert are zero. -/
theorem vp_c2 (c : Dev nD) : (Vp m c (Proc.devRef .tc main_c_2) : IVec S_ 32) = constantI S_ 32 0#32 := by
  dsimp only [Vp]
  simp only [Gen.hostOps0, Gen.hostOps0_1, Gen.hostOps0_2]
  after_results_simp

/-- A padded row read at a lane: the row below the edge count, the converted integer zero past it. -/
theorem padRow_apply (v : FVec Ideal S1000000 .bf16) (u : Fin 1) (j : Fin 1015808) :
    pad S1x1015808 ![0, 0] ![0, 15808] ![0, 0] (shapeCast S1x1000000 v shapeCasts_S1000000_S1x1000000)
        (sitofp (F := Ideal) .bf16 (constantI S_ 32 0#32)) pads_S1x1000000_S1x1015808_000_0158080 h_S_ (ix2 u j)
      = if h : j.val < 1000000 then v (ix1 (⟨j.val, h⟩ : Fin 1000000)) else (0 : EReal) := by
  by_cases h : j.val < 1000000
  · rw [dif_pos h]
    refine (pad_apply_of_inside _ _ _ _ _ _ _ (ix2 u j) (ix2 (0 : Fin 1) (⟨j.val, h⟩ : Fin 1000000)) (fun a => match a with
      | ⟨0, _⟩ => by show u.val = 0 + 0 * (0 + 1); omega
      | ⟨1, _⟩ => by show j.val = 0 + j.val * (0 + 1); omega)).trans ?_
    exact shapeCast_a_1a_apply _ _ _ _
  · rw [dif_neg h]
    refine (pad_apply_of_not_inside _ _ _ _ _ _ _ (ix2 u j) (1 : Fin 2) (fun hc => h ?_)).trans ?_
    · have h3 := hc.2.2
      change (j.val - 0) / (0 + 1) < 1000000 at h3
      omega
    · exact sitofp_zero

/-- The first window's array: the padded row of edge scalars. -/
theorem V_hi (c : Dev nD) (hin : InRange (m ((c.tc : Thread nD τ).loc main_arg1))) :
    (V m c main_v27 : SP.Idx → EReal) = hiP (m ((c.tc : Thread nD τ).loc main_arg0)) (m ((c.tc : Thread nD τ).loc main_arg1)) (m ((c.tc : Thread nD τ).loc main_arg2)) (m ((c.tc : Thread nD τ).loc main_arg4)) := by
  rw [V_split, tail_hi, vp_hi, vp_c2]
  funext i
  obtain ⟨u, j, rfl⟩ : ∃ (u : Fin 1) (j : Fin 1015808), i = ix2 u j := ⟨i 0, i 1, eq_ix2 i⟩
  rw [padRow_apply]
  unfold hiP
  show _ = if h : j.val < 1000000 then _ else _
  by_cases h : j.val < 1000000
  · rw [dif_pos h, dif_pos h, truncf_apply, msgVec_apply _ _ _ _ hin]
  · rw [dif_neg h, dif_neg h]

/-- The second window's array: the padded row of correction terms. -/
theorem V_lo (c : Dev nD) (hin : InRange (m ((c.tc : Thread nD τ).loc main_arg1))) :
    (V m c main_v28 : SP.Idx → EReal) = loP (m ((c.tc : Thread nD τ).loc main_arg0)) (m ((c.tc : Thread nD τ).loc main_arg1)) (m ((c.tc : Thread nD τ).loc main_arg2)) (m ((c.tc : Thread nD τ).loc main_arg4)) := by
  rw [V_split, tail_lo, vp_lo]
  funext i
  obtain ⟨u, j, rfl⟩ : ∃ (u : Fin 1) (j : Fin 1015808), i = ix2 u j := ⟨i 0, i 1, eq_ix2 i⟩
  rw [padRow_apply]
  unfold loP
  show _ = if h : j.val < 1000000 then _ else _
  by_cases h : j.val < 1000000
  · rw [dif_pos h, dif_pos h, truncf_apply, subf_apply, extf_apply, truncf_apply, msgVec_apply _ _ _ _ hin]
  · rw [dif_neg h, dif_neg h]

end Cert.KernelPrefix

end
-- ==== Proof.KernelBody.lean ====
/-
  What one run of the kernel body leaves behind, case by case, as pure functions of what it loaded: the running
  totals (the scratch row) after the first block of a core, after a middle block and after the last block, and the
  output row the last block stores; and those functions read at one graph: the old total plus the block's one-hot
  contraction of the edge scalars plus that of the correction terms.
-/
import proofs.«403148_j5978594476679_3_alg».proof.Proof.Gen.KernelIdeal.Frame
import proofs.«403148_j5978594476679_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelBody

open Idealize.ShloMosaic Idealize.ShloMosaic.TcCoe Idealize.ShloMosaic.ValueIdx Idealize.SL.Sem Cert.KernelIdeal Cert.KernelIdeal.Gen GnnPool

variable [Cert.KernelIdeal.Facts]

/-- The two offsets of a whole rank-2 rectangle are zero. -/
theorem zero_offsets2 : (![0, 0] : Fin 2 → Nat) = fun _ => 0 := funext fun a => by fin_cases a <;> rfl
/-- The three offsets of a whole rank-3 rectangle are zero. -/
theorem zero_offsets3 : (![0, 0, 0] : Fin 3 → Nat) = fun _ => 0 := funext fun a => by fin_cases a <;> rfl

section Pieces
variable {F : FTy → Type} [FloatOps F]

/-- First block of a core: the totals are reset to zero and the block is added. -/
theorem sout_A (c : Dev nD) (i : grid0.Coords) (arg2 : Memref sig .tc .vmem S1x16384 .bf16) (harg2 : arg2.IsWhole) (arg3 : Memref sig .tc .vmem S1x16384 .bf16) (harg3 : arg3.IsWhole) (arg4 : Memref sig .tc .vmem S1x16384 .i32) (harg4 : arg4.IsWhole) (arg5 : Memref sig .tc .vmem S1x1x512 .f32) (harg5 : arg5.IsWhole) (arg6 : Memref sig .tc .vmem S1x512 .f32) (harg6 : arg6.IsWhole) (hc0 : cond0_0 i) (hc1 : ¬cond0_1 i)
    (x0 : Vec F S1x16384 .bf16) (x1 : Vec F S1x16384 .bf16) (x2 : Vec F S1x16384 .i32) :
    sout0_A_0 c i arg2 harg2 arg3 harg3 arg4 harg4 arg5 harg5 arg6 harg6 hc0 hc1 x0 x1 x2 = k0_pay2 x2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  -- two whole-row stores, the update last: it alone remains, and the totals it read are the zero row stored before it
  rw [View.canon_cons_unit_zero (S := S1x512) zero_offsets2]
  simp only [View.readAt_eq_ld, harg2.read_unread, harg3.read_unread, harg4.read_unread, harg6.read_unread, View.ld_unit_zero (S := S1x16384) zero_offsets2, View.ld_unit_zero (S := S1x512) zero_offsets2, View.readCov_unit_zero (S := S1x512) _ zero_offsets2]

/-- A middle block: the block is added to the totals the block before left. -/
theorem sout_B (c : Dev nD) (i : grid0.Coords) (arg2 : Memref sig .tc .vmem S1x16384 .bf16) (harg2 : arg2.IsWhole) (arg3 : Memref sig .tc .vmem S1x16384 .bf16) (harg3 : arg3.IsWhole) (arg4 : Memref sig .tc .vmem S1x16384 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : ¬cond0_1 i)
    (x0 : Vec F S1x16384 .bf16) (x1 : Vec F S1x16384 .bf16) (x2 : Vec F S1x16384 .i32) (xs0 : Vec F S1x512 .f32) :
    sout0_B_0 c i arg2 harg2 arg3 harg3 arg4 harg4 arg5 harg5 arg6 harg6 hc0 hc1 x0 x1 x2 xs0 = k0_pay2 x2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  -- one whole-row store; every load reads a whole buffer
  rw [View.canon_unit_zero zero_offsets2]
  simp only [View.readAt_eq_ld, harg2.read_unread, harg3.read_unread, harg4.read_unread, harg6.read_unread, View.ld_unit_zero (S := S1x16384) zero_offsets2, View.ld_unit_zero (S := S1x512) zero_offsets2, View.readCov_unit_zero (S := S1x512) _ zero_offsets2]

/-- The last block: likewise for the totals, -/
theorem sout_C (c : Dev nD) (i : grid0.Coords) (arg2 : Memref sig .tc .vmem S1x16384 .bf16) (harg2 : arg2.IsWhole) (arg3 : Memref sig .tc .vmem S1x16384 .bf16) (harg3 : arg3.IsWhole) (arg4 : Memref sig .tc .vmem S1x16384 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x16384 .bf16) (x1 : Vec F S1x16384 .bf16) (x2 : Vec F S1x16384 .i32) (xs0 : Vec F S1x512 .f32) :
    sout0_C_0 c i arg2 harg2 arg3 harg3 arg4 harg4 arg5 harg5 arg6 harg6 hc0 hc1 x0 x1 x2 xs0 = k0_pay2 x2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero_offsets2]
  simp only [View.readAt_eq_ld, harg2.read_unread, harg3.read_unread, harg4.read_unread, harg6.read_unread, View.ld_unit_zero (S := S1x16384) zero_offsets2, View.ld_unit_zero (S := S1x512) zero_offsets2, View.readCov_unit_zero (S := S1x512) _ zero_offsets2]

/-- and the output row is the totals re-laid as [1, 1, 512]. -/
theorem out_C (c : Dev nD) (i : grid0.Coords) (arg2 : Memref sig .tc .vmem S1x16384 .bf16) (harg2 : arg2.IsWhole) (arg3 : Memref sig .tc .vmem S1x16384 .bf16) (harg3 : arg3.IsWhole) (arg4 : Memref sig .tc .vmem S1x16384 .i32) (harg4 : arg4.IsWhole) (arg5 : Memref sig .tc .vmem S1x1x512 .f32) (harg5 : arg5.IsWhole) (arg6 : Memref sig .tc .vmem S1x512 .f32) (harg6 : arg6.IsWhole) (hc0 : ¬cond0_0 i) (hc1 : cond0_1 i)
    (x0 : Vec F S1x16384 .bf16) (x1 : Vec F S1x16384 .bf16) (x2 : Vec F S1x16384 .i32) (xs0 : Vec F S1x512 .f32) :
    out0_C_3 c i arg2 harg2 arg3 harg3 arg4 harg4 arg5 harg5 arg6 harg6 hc0 hc1 x0 x1 x2 xs0 = k0_pay3 (k0_pay2 x2 x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  -- one whole store of the output row; the totals it re-lays are the update stored just before, read back whole
  rw [View.canon_unit_zero zero_offsets3]
  simp only [View.readAt_eq_ld, harg2.read_unread, harg3.read_unread, harg4.read_unread, harg6.read_unread, View.ld_unit_zero (S := S1x16384) zero_offsets2, View.ld_unit_zero (S := S1x512) zero_offsets2, View.readCov_unit_zero (S := S1x512) _ zero_offsets2]

end Pieces

/-! ## The payloads read at one graph -/

/-- The reset value is zero everywhere. -/
theorem pay1_apply (y : S1x512.Idx) : (k0_pay1 (F := Ideal)) y = 0 := by
  unfold k0_pay1
  rw [shapeCast_self]
  exact Ideal.ofBits_zero_f32

/-- An equality test of two words, widened and read as a signed integer, is one or zero. -/
theorem eq_word_value (a b : BitVec 32) :
    (FloatOps.sitofp (F := Ideal) .f32 ((IntOp.cmpi .eq a b).setWidth 32) : EReal) = if a = b then 1 else 0 := by
  by_cases h : a = b
  · have e : IntOp.cmpi .eq a b = 1#1 := by simp [IntOp.cmpi, h]
    rw [if_pos h, e]
    show (((((1#1 : BitVec 1).setWidth 32).toInt : ℤ) : ℝ) : EReal) = 1
    rw [show ((1#1 : BitVec 1).setWidth 32).toInt = 1 from by decide]
    simp
  · have e : IntOp.cmpi .eq a b = 0#1 := by simp [IntOp.cmpi, beq_false_of_ne h]
    rw [if_neg h, e]
    show (((((0#1 : BitVec 1).setWidth 32).toInt : ℤ) : ℝ) : EReal) = 0
    rw [show ((0#1 : BitVec 1).setWidth 32).toInt = 0 from by decide]
    simp

/-- The one-hot matrix of a block's label words: row `g`, lane `j` compares lane `j`'s word with `g`. -/
def onehot (x2 : IVec S1x16384 32) : FVec Ideal S512x16384 .bf16 :=
  truncf .bf16 (sitofp .f32 (extui 32 (cmpi .eq (broadcastTo S512x16384 x2 broadcasts_S1x16384_S512x16384) (iota .tc S512x16384 32 [0] iota_S512x16384_d0_w32)) natLt_1_32)) bitsLt_bf16_f32

/-- Its entry at row `g`, lane `j`. -/
theorem onehot_apply (x2 : IVec S1x16384 32) (g : Fin 512) (j : Fin 16384) :
    onehot x2 (ix2 g j) = oh (x2 (ix2 0 j)) g := by
  unfold onehot oh
  rw [truncf_apply, sitofp_apply, extui_apply]
  show FloatOps.sitofp (F := Ideal) .f32 ((IntOp.cmpi .eq (broadcastTo S512x16384 x2 broadcasts_S1x16384_S512x16384 (ix2 g j)) (iota .tc S512x16384 32 [0] iota_S512x16384_d0_w32 (ix2 g j))).setWidth 32) = _
  rw [iota_single_apply, broadcastTo_apply x2 broadcasts_S1x16384_S512x16384 (ix2 g j) (ix2 0 j) (fun a => by
    match a with
    | ⟨0, _⟩ => rfl
    | ⟨1, _⟩ => rfl)]
  exact eq_word_value _ _

/-- The output axis of the left operand is the output's first axis. -/
theorem lhs_contract_0 (i : S1x512.Idx) (q : dot_S1x16384_S512x16384_S1x512_1_1_0_0_n_n.contr.Idx) :
    (dot_S1x16384_S512x16384_S1x512_1_1_0_0_n_n.lhsIdx i q 0).val = (i 0).val := by
  unfold DotDims.lhsIdx
  rw [dif_neg (show ¬(0 : Fin S1x16384.rank) ∈ dot_S1x16384_S512x16384_S1x512_1_1_0_0_n_n.lhsBatch by decide), dif_pos (show (0 : Fin S1x16384.rank) ∈ dot_S1x16384_S512x16384_S1x512_1_1_0_0_n_n.lhsNonContracting by decide)]
  rfl
/-- The lane axis of the left operand is the contraction index. -/
theorem lhs_contract_1 (i : S1x512.Idx) (q : dot_S1x16384_S512x16384_S1x512_1_1_0_0_n_n.contr.Idx) :
    (dot_S1x16384_S512x16384_S1x512_1_1_0_0_n_n.lhsIdx i q 1).val = (q ⟨0, by decide⟩).val :=
  dot_S1x16384_S512x16384_S1x512_1_1_0_0_n_n.lhsIdx_val_of_single rfl i q
/-- The row axis of the right operand is the output's second axis. -/
theorem rhs_contract_0 (i : S1x512.Idx) (q : dot_S1x16384_S512x16384_S1x512_1_1_0_0_n_n.contr.Idx) :
    (dot_S1x16384_S512x16384_S1x512_1_1_0_0_n_n.rhsIdx i q 0).val = (i 1).val := by
  unfold DotDims.rhsIdx
  rw [dif_neg (show ¬(0 : Fin S512x16384.rank) ∈ dot_S1x16384_S512x16384_S1x512_1_1_0_0_n_n.rhsBatch by decide), dif_pos (show (0 : Fin S512x16384.rank) ∈ dot_S1x16384_S512x16384_S1x512_1_1_0_0_n_n.rhsNonContracting by decide)]
  rfl
/-- The lane axis of the right operand is the contraction index. -/
theorem rhs_contract_1 (i : S1x512.Idx) (q : dot_S1x16384_S512x16384_S1x512_1_1_0_0_n_n.contr.Idx) :
    (dot_S1x16384_S512x16384_S1x512_1_1_0_0_n_n.rhsIdx i q 1).val = (q ⟨0, by decide⟩).val :=
  dot_S1x16384_S512x16384_S1x512_1_1_0_0_n_n.rhsIdx_val_of_single rfl i q

/-- One contraction into the zero row: at graph `g` the sum over the lanes of the products. -/
theorem contract_apply (a : FVec Ideal S1x16384 .bf16) (M : FVec Ideal S512x16384 .bf16) (g : Fin 512) :
    matmul dot_S1x16384_S512x16384_S1x512_1_1_0_0_n_n none a M (constant (F := Ideal) S1x512 .f32 0x00000000#32) (ix2 0 g)
      = ∑ j : Fin 16384, a (ix2 0 j) * M (ix2 g j) := by
  simp only [matmul]
  rw [Ideal.matmul_constant_zero_apply, ← Equiv.sum_comp (ValueIdx.contrEquiv1 dot_S1x16384_S512x16384_S1x512_1_1_0_0_n_n 16384 rfl rfl).symm]
  refine Finset.sum_congr rfl fun k _ => ?_
  have hk := ValueIdx.contrEquiv1_symm_val dot_S1x16384_S512x16384_S1x512_1_1_0_0_n_n 16384 rfl rfl k
  have el : dot_S1x16384_S512x16384_S1x512_1_1_0_0_n_n.lhsIdx (ix2 0 g) ((ValueIdx.contrEquiv1 dot_S1x16384_S512x16384_S1x512_1_1_0_0_n_n 16384 rfl rfl).symm k) = ix2 0 k := funext fun a => Fin.ext (by
    match a with
    | ⟨0, _⟩ => exact lhs_contract_0 _ _
    | ⟨1, _⟩ => exact (lhs_contract_1 _ _).trans hk)
  have er : dot_S1x16384_S512x16384_S1x512_1_1_0_0_n_n.rhsIdx (ix2 0 g) ((ValueIdx.contrEquiv1 dot_S1x16384_S512x16384_S1x512_1_1_0_0_n_n 16384 rfl rfl).symm k) = ix2 g k := funext fun a => Fin.ext (by
    match a with
    | ⟨0, _⟩ => exact rhs_contract_0 _ _
    | ⟨1, _⟩ => exact (rhs_contract_1 _ _).trans hk)
  rw [el, er]

/-- The update is the old totals plus the two contractions against the one-hot matrix. -/
theorem pay2_eq (x2 : IVec S1x16384 32) (x0 x1 : FVec Ideal S1x16384 .bf16) (acc : FVec Ideal S1x512 .f32) :
    k0_pay2 (F := Ideal) x2 x0 x1 acc
      = addf acc (addf (matmul dot_S1x16384_S512x16384_S1x512_1_1_0_0_n_n none x0 (onehot x2) (constant (F := Ideal) S1x512 .f32 0x00000000#32))
          (matmul dot_S1x16384_S512x16384_S1x512_1_1_0_0_n_n none x1 (onehot x2) (constant (F := Ideal) S1x512 .f32 0x00000000#32))) := by
  unfold k0_pay2 onehot
  simp only [shapeCast_self]

/-- The update at graph `g`: the old total plus the two one-hot contractions over the block's 16384 lanes. -/
theorem pay2_apply (x2 : Vec Ideal S1x16384 .i32) (x0 x1 : Vec Ideal S1x16384 .bf16) (acc : Vec Ideal S1x512 .f32) (g : Fin 512) :
    k0_pay2 (F := Ideal) x2 x0 x1 acc (ix2 0 g)
      = acc (ix2 0 g) + ((∑ j : Fin 16384, x0 (ix2 0 j) * oh (x2 (ix2 0 j)) g) + (∑ j : Fin 16384, x1 (ix2 0 j) * oh (x2 (ix2 0 j)) g)) := by
  rw [pay2_eq, addf_apply, addf_apply, contract_apply, contract_apply]
  simp only [onehot_apply]

/-- The output row at graph `g` is the total at `g`. -/
theorem pay3_apply (v : Vec Ideal S1x512 .f32) (g : Fin 512) :
    k0_pay3 (F := Ideal) v (ix3 0 0 g) = v (ix2 0 g) := by
  unfold k0_pay3
  exact shapeCast_ab_1ab_apply v shapeCasts_S1x512_S1x1x512 0 0 g

end Cert.KernelBody

end
-- ==== Proof.KernelRegion.lean ====
/-
  The kernel's output array after the whole grid: core `c`'s row holds, per graph, the sum over the core's 31
  blocks of the block's one-hot contractions. The running totals after the block at grid position `n` are the sum
  over the blocks of that core up to it (an induction over the positions; the first block of a core resets); the last
  block of a core writes the totals out, and the two written rows cover the array.
-/
import proofs.«403148_j5978594476679_3_alg».proof.Proof.Gen.KernelIdeal.Frame
import proofs.«403148_j5978594476679_3_alg».proof.Proof.Spec
import proofs.«403148_j5978594476679_3_alg».proof.Proof.KernelBody
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Group.Finset.Basic

noncomputable section

namespace Cert.KernelRegion

open Idealize.ShloMosaic Idealize.ShloMosaic.TcCoe Idealize.ShloMosaic.ValueIdx Idealize.SL.Sem Cert.KernelIdeal Cert.KernelIdeal.Gen GnnPool
open scoped BigOperators

/-! ## The index maps over the grid

The grid is 2 cores × 31 blocks, walked row-major: position `t` is block `t % 31` of core `t / 31`. -/

/-- The three input windows sit at block (0, core * 31 + block) of the padded edge axis, and for the row-major
    grid that block number is the position itself. -/
theorem in_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The output window sits at block (core, 0, 0): one row of 512 per core. -/
theorem out_index : ∀ t : Fin cfg0.N,
    win0_3.index t (0 : Fin 3) = t.val / 31 ∧ win0_3.index t (1 : Fin 3) = 0 ∧ win0_3.index t (2 : Fin 3) = 0 :=
  (by decide +kernel : ∀ t : Fin grid0.N, _)

variable [Cert.KernelIdeal.Facts]
variable (m : (ℓ : Loc nD τ sig) → Buf (Elt Ideal) ℓ)

/-! ## The input blocks are stretches of the padded arrays -/

/-- The block of edge scalars loaded at grid position `t`, -/
abbrev hiblk (c : Dev nD) (t : Fin cfg0.N) : Vec Ideal S1x16384 .bf16 := iblk m c 0 t
/-- the block of correction terms, -/
abbrev loblk (c : Dev nD) (t : Fin cfg0.N) : Vec Ideal S1x16384 .bf16 := iblk m c 1 t
/-- and the block of graph labels. -/
abbrev gidblk (c : Dev nD) (t : Fin cfg0.N) : Vec Ideal S1x16384 .i32 := iblk m c 2 t
/-- The padded row of edge scalars as the region finds it, -/
abbrev hiarr (c : Dev nD) : SP.Idx → EReal := V m c main_v27
/-- the padded row of correction terms, -/
abbrev loarr (c : Dev nD) : SP.Idx → EReal := V m c main_v28
/-- and the padded row of graph labels. -/
abbrev gidarr (c : Dev nD) : IVec SP 32 := V m c main_v29

/-- Lane `j` of the block of edge scalars at position `cc * 31 + k` is the array at `pos cc k j`: a block's
    coordinate is block index × 16384 + lane. -/
theorem hiblk_apply (c : Dev nD) (t : Fin cfg0.N) (cc : Fin 2) (k : Fin 31) (ht : t.val = cc.val * 31 + k.val)
    (j : Fin 16384) : hiblk m c t (ix2 0 j) = hiarr m c (ix2 0 (pos cc k j)) := by
  obtain ⟨e0, e1, -, -, -, -⟩ := in_index t
  unfold hiblk iblk
  rw [View.read_apply]
  show V m c main_v27 (((cfg0.win 0).blk t).view.emb (ix2 0 j)) = V m c main_v27 (ix2 0 (pos cc k j))
  congr 1
  funext a
  apply Fin.ext
  match a with
  | ⟨0, _⟩ => show win0_0.index t (0 : Fin 2) * 1 + 1 * 0 = 0; omega
  | ⟨1, _⟩ => show win0_0.index t (1 : Fin 2) * 16384 + 1 * j.val = (cc.val * 31 + k.val) * 16384 + j.val; rw [e1, ht]; omega

/-- Likewise for the correction terms, -/
theorem loblk_apply (c : Dev nD) (t : Fin cfg0.N) (cc : Fin 2) (k : Fin 31) (ht : t.val = cc.val * 31 + k.val)
    (j : Fin 16384) : loblk m c t (ix2 0 j) = loarr m c (ix2 0 (pos cc k j)) := by
  obtain ⟨-, -, e0, e1, -, -⟩ := in_index t
  unfold loblk iblk
  rw [View.read_apply]
  show V m c main_v28 (((cfg0.win 1).blk t).view.emb (ix2 0 j)) = V m c main_v28 (ix2 0 (pos cc k j))
  congr 1
  funext a
  apply Fin.ext
  match a with
  | ⟨0, _⟩ => show win0_1.index t (0 : Fin 2) * 1 + 1 * 0 = 0; omega
  | ⟨1, _⟩ => show win0_1.index t (1 : Fin 2) * 16384 + 1 * j.val = (cc.val * 31 + k.val) * 16384 + j.val; rw [e1, ht]; omega

/-- and for the graph labels. -/
theorem gidblk_apply (c : Dev nD) (t : Fin cfg0.N) (cc : Fin 2) (k : Fin 31) (ht : t.val = cc.val * 31 + k.val)
    (j : Fin 16384) : gidblk m c t (ix2 0 j) = gidarr m c (ix2 0 (pos cc k j)) := by
  obtain ⟨-, -, -, -, e0, e1⟩ := in_index t
  unfold gidblk iblk
  rw [View.read_apply]
  show V m c main_v29 (((cfg0.win 2).blk t).view.emb (ix2 0 j)) = V m c main_v29 (ix2 0 (pos cc k j))
  congr 1
  funext a
  apply Fin.ext
  match a with
  | ⟨0, _⟩ => show win0_2.index t (0 : Fin 2) * 1 + 1 * 0 = 0; omega
  | ⟨1, _⟩ => show win0_2.index t (1 : Fin 2) * 16384 + 1 * j.val = (cc.val * 31 + k.val) * 16384 + j.val; rw [e1, ht]; omega

/-- What the block at grid position `cc * 31 + k` adds at graph `g`: the two one-hot contractions over the
    block's lanes are those of the arrays over the block's stretch of the padded edge axis, that is `blockSum`. -/
theorem block_term (c : Dev nD) (t : Fin cfg0.N) (cc : Fin 2) (k : Fin 31) (ht : t.val = cc.val * 31 + k.val)
    (g : Fin 512) :
    (∑ j : Fin 16384, hiblk m c t (ix2 0 j) * oh (gidblk m c t (ix2 0 j)) g)
      + (∑ j : Fin 16384, loblk m c t (ix2 0 j) * oh (gidblk m c t (ix2 0 j)) g)
      = blockSum (hiarr m c) (loarr m c) (gidarr m c) cc k g := by
  unfold blockSum
  exact congrArg₂ (fun a b : EReal => a + b)
    (Finset.sum_congr rfl fun j _ => congrArg₂ (fun (a : EReal) (b : BitVec 32) => a * oh b g)
      (hiblk_apply m c t cc k ht j) (gidblk_apply m c t cc k ht j))
    (Finset.sum_congr rfl fun j _ => congrArg₂ (fun (a : EReal) (b : BitVec 32) => a * oh b g)
      (loblk_apply m c t cc k ht j) (gidblk_apply m c t cc k ht j))

/-! ## The running totals -/

/-- One block's contribution read at a natural number: zero past the core's last block. -/
def blockNat (HI LO : SP.Idx → EReal) (GID : IVec SP 32) (cc : Fin 2) (g : Fin 512) (k : ℕ) : EReal :=
  if h : k < 31 then blockSum HI LO GID cc ⟨k, h⟩ g else 0

theorem blockNat_of_lt (HI LO : SP.Idx → EReal) (GID : IVec SP 32) (cc : Fin 2) (g : Fin 512) (k : ℕ) (h : k < 31) :
    blockNat HI LO GID cc g k = blockSum HI LO GID cc ⟨k, h⟩ g := dif_pos h

/-- The sum over a core's 31 blocks, read over the natural numbers below 31. -/
theorem sum_blockNat (HI LO : SP.Idx → EReal) (GID : IVec SP 32) (cc : Fin 2) (g : Fin 512) :
    ∑ k' ∈ Finset.range 31, blockNat HI LO GID cc g k' = ∑ k : Fin 31, blockSum HI LO GID cc k g := by
  rw [← Fin.sum_univ_eq_sum_range (fun k' => blockNat HI LO GID cc g k') 31]
  exact Finset.sum_congr rfl fun k _ => blockNat_of_lt HI LO GID cc g k.val k.isLt

/-- THE RUNNING TOTALS. After block `k` of core `cc` (grid position `cc * 31 + k`) the total of graph `g` is the
    sum of the core's blocks `0 … k`: the first block starts from zero (`0 + a = a`), every later one adds its
    contribution to what the block before left (one more term of the sum). -/
theorem totals (c : Dev nD) (cc : Fin 2) (g : Fin 512) :
    ∀ (k : ℕ) (_ : k < 31) (t : Fin cfg0.N), t.val = cc.val * 31 + k →
      (outsAt0 m c t.val t.isLt).2 (ix2 0 g)
        = ∑ k' ∈ Finset.range (k + 1), blockNat (hiarr m c) (loarr m c) (gidarr m c) cc g k' := by
  intro k
  induction k with
  | zero =>
    intro hk t ht
    have h0 : t.val % 31 = 0 := by have := cc.isLt; omega
    have h1 : ¬t.val % 31 = 30 := by omega
    rw [outsAt0_A m c t h0 h1]
    dsimp only
    refine (congrFun (Cert.KernelBody.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (hiblk m c t) (loblk m c t) (gidblk m c t)) (ix2 0 g)).trans ?_
    refine (Cert.KernelBody.pay2_apply (gidblk m c t) (hiblk m c t) (loblk m c t) (k0_pay1 (F := Ideal)) g).trans ?_
    rw [Cert.KernelBody.pay1_apply, zero_add, Finset.sum_range_one, blockNat_of_lt _ _ _ _ _ _ hk]
    exact block_term m c t cc ⟨0, hk⟩ ht g
  | succ k ih =>
    intro hk t ht
    have h0 : ¬t.val % 31 = 0 := by have := cc.isLt; omega
    have hp : t.val - 1 < cfg0.N := Nat.lt_of_le_of_lt (Nat.sub_le _ _) t.isLt
    have ih' : (outsAt0 m c (t.val - 1) hp).2 (ix2 0 g)
        = ∑ k' ∈ Finset.range (k + 1), blockNat (hiarr m c) (loarr m c) (gidarr m c) cc g k' :=
      ih (by omega) ⟨t.val - 1, hp⟩ (by show t.val - 1 = _; omega)
    by_cases h1 : t.val % 31 = 30
    · rw [outsAt0_C m c t h0 h1]
      dsimp only
      refine (congrFun (Cert.KernelBody.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hiblk m c t) (loblk m c t) (gidblk m c t) (outsAt0 m c (t.val - 1) hp).2) (ix2 0 g)).trans ?_
      refine (Cert.KernelBody.pay2_apply (gidblk m c t) (hiblk m c t) (loblk m c t) (outsAt0 m c (t.val - 1) hp).2 g).trans ?_
      rw [ih', Finset.sum_range_succ _ (k + 1), blockNat_of_lt _ _ _ _ _ _ hk]
      exact congrArg _ (block_term m c t cc ⟨k + 1, hk⟩ ht g)
    · rw [outsAt0_B m c t h0 h1]
      dsimp only
      refine (congrFun (Cert.KernelBody.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (hiblk m c t) (loblk m c t) (gidblk m c t) (outsAt0 m c (t.val - 1) hp).2) (ix2 0 g)).trans ?_
      refine (Cert.KernelBody.pay2_apply (gidblk m c t) (hiblk m c t) (loblk m c t) (outsAt0 m c (t.val - 1) hp).2 g).trans ?_
      rw [ih', Finset.sum_range_succ _ (k + 1), blockNat_of_lt _ _ _ _ _ _ hk]
      exact congrArg _ (block_term m c t cc ⟨k + 1, hk⟩ ht g)

/-! ## The written rows and the array -/

/-- THE ROW A CORE WRITES OUT. After its last block (grid position `cc * 31 + 30`) core `cc` stores the totals,
    re-laid as [1, 1, 512], as the output row: at graph `g` the sum of the core's 31 blocks. -/
theorem out_row (c : Dev nD) (cc : Fin 2) (g : Fin 512) (t : Fin cfg0.N) (ht : t.val = cc.val * 31 + 30) :
    (outsAt0 m c t.val t.isLt).1 (ix3 0 0 g)
      = ∑ k : Fin 31, blockSum (hiarr m c) (loarr m c) (gidarr m c) cc k g := by
  have h0 : ¬t.val % 31 = 0 := by have := cc.isLt; omega
  have h1 : t.val % 31 = 30 := by have := cc.isLt; omega
  have hp : t.val - 1 < cfg0.N := Nat.lt_of_le_of_lt (Nat.sub_le _ _) t.isLt
  have tot := totals m c cc g 30 (by omega) t ht
  rw [outsAt0_C m c t h0 h1] at tot
  dsimp only at tot
  have e := congrFun (Cert.KernelBody.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hiblk m c t) (loblk m c t) (gidblk m c t) (outsAt0 m c (t.val - 1) hp).2) (ix2 0 g)
  rw [outsAt0_C m c t h0 h1]
  dsimp only
  refine (congrFun (Cert.KernelBody.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hiblk m c t) (loblk m c t) (gidblk m c t) (outsAt0 m c (t.val - 1) hp).2) (ix3 0 0 g)).trans ?_
  refine (Cert.KernelBody.pay3_apply (k0_pay2 (F := Ideal) (gidblk m c t) (hiblk m c t) (loblk m c t) (outsAt0 m c (t.val - 1) hp).2) g).trans ?_
  exact (e.symm.trans tot).trans (sum_blockNat _ _ _ cc g)

/-- WHAT A WRITING POINT WRITES BACK is its block of `regionOut` of the three arrays: the point is the last block of
    its core, its block is row `core` of the output (coordinate = block index × block size + coordinate inside the
    block), and the row holds the core's sums. -/
theorem flushed_row (c : Dev nD) (t : Fin cfg0.N) (hf : (cfg0.win 3).flush t = true) :
    (dats m 0 c).flushed 3 t
      = ((cfg0.win 3).blk t).view.read (Elt Ideal) (regionOut (hiarr m c) (loarr m c) (gidarr m c)) := by
  have h1 : t.val % 31 = 30 := (flush0_3 t).mp hf
  have hN : t.val < 62 := lt_of_lt_of_eq t.isLt N_0
  obtain ⟨e0, e1, e2⟩ := out_index t
  show (cfg0.win 3).cut (grid0.coords t) ((dats m 0 c).after 3 t) = _
  rw [after0_3]
  refine funext fun (y : S1x1x512.Idx) => ?_
  show (outsAt0 m c t.val t.isLt).1 y
    = regionOut (hiarr m c) (loarr m c) (gidarr m c) (((cfg0.win 3).blk t).view.emb y)
  have hy0 : (y 0).val < 1 := (y 0).isLt
  have hy1 : (y 1).val < 1 := (y 1).isLt
  have hy2 : (y 2).val < 512 := (y 2).isLt
  have E : ((cfg0.win 3).blk t).view.emb y = ix3 (⟨t.val / 31, by omega⟩ : Fin 2) (0 : Fin 1) (⟨(y 2).val, hy2⟩ : Fin 512) := by
    funext a
    apply Fin.ext
    match a with
    | ⟨0, _⟩ => show win0_3.index t (0 : Fin 3) * 1 + 1 * (y 0).val = t.val / 31; rw [e0]; omega
    | ⟨1, _⟩ => show win0_3.index t (1 : Fin 3) * 1 + 1 * (y 1).val = 0; rw [e1]; omega
    | ⟨2, _⟩ => show win0_3.index t (2 : Fin 3) * 512 + 1 * (y 2).val = (y 2).val; rw [e2]; omega
  have Y : y = ix3 (0 : Fin 1) (0 : Fin 1) (⟨(y 2).val, hy2⟩ : Fin 512) := by
    funext a
    apply Fin.ext
    match a with
    | ⟨0, _⟩ => show (y 0).val = 0; omega
    | ⟨1, _⟩ => show (y 1).val = 0; omega
    | ⟨2, _⟩ => rfl
  rw [E]
  refine (congrArg (outsAt0 m c t.val t.isLt).1 Y).trans ?_
  exact out_row m c ⟨t.val / 31, by omega⟩ ⟨(y 2).val, hy2⟩ t (by show t.val = t.val / 31 * 31 + 30; omega)

/-- THE COVER. Every index (core, 0, graph) of the output lies in the block the core's last point writes back. -/
theorem covered (i : SK.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 512 := (i 2).isLt
  have hN : cfg0.N = 62 := N_0
  obtain ⟨t, ht⟩ : ∃ t : Fin cfg0.N, t.val = (i 0).val * 31 + 30 := ⟨⟨(i 0).val * 31 + 30, by omega⟩, rfl⟩
  obtain ⟨e0, e1, e2⟩ := out_index t
  refine ⟨t, (flush0_3 t).mpr (by omega), ?_⟩
  show i ∈ ((View.whole main_v30).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 512 ≤ (i 2).val ∧ (i 2).val < win0_3.index t (2 : Fin 3) * 512 + 512
    rw [e2]; omega

/-- The output array after the last grid point is `regionOut` of the three input arrays as the region found them. -/
theorem region_value (c : Dev nD) :
    ((dats m 0 c).arrAt 3 cfg0.N : SK.Idx → EReal)
      = regionOut (V m c main_v27 : SP.Idx → EReal) (V m c main_v28 : SP.Idx → EReal) (V m c main_v29 : IVec SP 32) :=
  (dats m 0 c).arrAt_eq_of_cover 3 (regionOut (hiarr m c) (loarr m c) (gidarr m c)) (flushed_row m c) covered

end Cert.KernelRegion

end
-- ==== Proof.KernelRun.lean ====
/-
  The kernel program's run, with its result named: every execution ends with the result buffer at the pooled
  read-out computed from the kernel's output array — the two cores' rows added, divided by the node count (at
  least one), the bias added — where the output array is the region's value over the three padded rows the host
  prepared; the six arguments end unchanged.
-/
import proofs.«403148_j5978594476679_3_alg».proof.Proof.Gen.KernelIdeal.Frame
import proofs.«403148_j5978594476679_3_alg».proof.Proof.Spec
import proofs.«403148_j5978594476679_3_alg».proof.Proof.KernelPrefix
import proofs.«403148_j5978594476679_3_alg».proof.Proof.KernelRegion
import proofs.«403148_j5978594476679_3_alg».proof.Proof.LibTRef
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelRun

open Idealize.ShloMosaic Idealize.ShloMosaic.TcCoe Idealize.ShloMosaic.ValueIdx Idealize.SL.Sem Cert.KernelIdeal Cert.KernelIdeal.Gen GnnPool

variable [Cert.KernelIdeal.Facts]

/-- The host lines after the kernel, read at graph `g`: the slices of the two cores' rows are added, the sum divided
    by the larger of the node count and one, and the bias added. Every reshape keeps the row-major position, each
    slice shifts the leading coordinate by its offset, and a scalar broadcast reads the scalar. -/
theorem tail_apply
    (hs0 : (⟨3, ![2, 1, 512]⟩ : Shape).Slices ![0, 0, 0] ⟨3, ![1, 1, 512]⟩)
    (hs1 : (⟨3, ![2, 1, 512]⟩ : Shape).Slices ![1, 0, 0] ⟨3, ![1, 1, 512]⟩)
    (hc1 : (⟨3, ![1, 1, 512]⟩ : Shape).ShapeCasts ⟨2, ![1, 512]⟩)
    (hc2 : (⟨2, ![1, 512]⟩ : Shape).ShapeCasts ⟨1, ![512]⟩)
    (hc3 : (⟨1, ![1]⟩ : Shape).ShapeCasts ⟨0, ![]⟩)
    (hc4 : (⟨1, ![512]⟩ : Shape).ShapeCasts ⟨2, ![512, 1]⟩)
    (hb : (⟨0, ![]⟩ : Shape).BroadcastsInDim ⟨1, ![512]⟩ ![])
    (OUT : FVec Ideal ⟨3, ![2, 1, 512]⟩ .f32) (CNT : FVec Ideal ⟨1, ![512]⟩ .f32) (B : FVec Ideal ⟨1, ![1]⟩ .f32)
    (g : Fin 512) (u : Fin 1) :
    shapeCast ⟨2, ![512, 1]⟩
      (addf (Host.divf
              (shapeCast ⟨1, ![512]⟩
                (addf (shapeCast ⟨2, ![1, 512]⟩ (extractStridedSlice ⟨3, ![1, 1, 512]⟩ ![0, 0, 0] OUT hs0) hc1)
                      (shapeCast ⟨2, ![1, 512]⟩ (extractStridedSlice ⟨3, ![1, 1, 512]⟩ ![1, 0, 0] OUT hs1) hc1)) hc2)
              (maximumf CNT (broadcastInDim ⟨1, ![512]⟩ ![] hb (constant (F := Ideal) ⟨0, ![]⟩ .f32 0x3F800000#32))))
            (broadcastInDim ⟨1, ![512]⟩ ![] hb (shapeCast ⟨0, ![]⟩ B hc3))) hc4 (ix2 g u)
      = Ideal.div (OUT (ix3 0 0 g) + OUT (ix3 1 0 g)) (max (CNT (ix1 g)) 1) + B (ix1 0) := by
  -- the last reshape: position `g * 1 + u` of the column is position `g` of the vector
  refine (shapeCast_apply _ hc4 (ix2 g u) (ix1 g) ?_).trans ?_
  · rw [Shape.rowMajor_val_one, Shape.rowMajor_val_two]
    have hu : u.val = 0 := by omega
    show g.val = g.val * 1 + u.val
    omega
  rw [addf_apply, hostDivf_apply, maximumf_apply, broadcastInDim_scalar_apply, broadcastInDim_scalar_apply,
    constant_apply, Ideal.ofBits_one_f32]
  -- the numerator: the row vector's entry `g` is the sum of the two slices' entries `(0, 0, g)`
  rw [shapeCast_1a_a_apply _ hc2 g, addf_apply, shapeCast_1ab_ab_apply _ hc1 0 g, shapeCast_1ab_ab_apply _ hc1 0 g]
  -- each slice reads the output array at its own leading coordinate
  have e0 : extractStridedSlice ⟨3, ![1, 1, 512]⟩ ![0, 0, 0] OUT hs0 (ix3 (0 : Fin 1) (0 : Fin 1) g) = OUT (ix3 0 0 g) :=
    extractStridedSlice_apply _ OUT hs0 _ _ fun a => match a with
      | ⟨0, _⟩ => rfl | ⟨1, _⟩ => rfl | ⟨2, _⟩ => (Nat.zero_add _).symm
  have e1 : extractStridedSlice ⟨3, ![1, 1, 512]⟩ ![1, 0, 0] OUT hs1 (ix3 (0 : Fin 1) (0 : Fin 1) g) = OUT (ix3 1 0 g) :=
    extractStridedSlice_apply _ OUT hs1 _ _ fun a => match a with
      | ⟨0, _⟩ => rfl | ⟨1, _⟩ => rfl | ⟨2, _⟩ => (Nat.zero_add _).symm
  -- the bias: the one-entry vector read as a scalar
  have eb : shapeCast ⟨0, ![]⟩ B hc3 ix0 = B (ix1 0) :=
    shapeCast_apply B hc3 ix0 (ix1 0) (by
      rw [Shape.rowMajor_val_one]
      exact (Shape.rowMajorPi_zero _ _).symm)
  rw [e0, e1, eb]

/-- The host lines after the kernel as one function of the three buffers they read: the kernel's output array, the
    node counts, the bias. -/
def tailFn (OUT : FVec Ideal S2x1x512 .f32) (CNT : FVec Ideal S512 .f32) (B : FVec Ideal S1 .f32) : FVec Ideal S512x1 .f32 :=
  shapeCast S512x1
    (addf (Host.divf
            (shapeCast S512
              (addf (shapeCast S1x512 (extractStridedSlice S1x1x512 ![0, 0, 0] OUT slices_S2x1x512_S1x1x512_0_0_0) shapeCasts_S1x1x512_S1x512)
                    (shapeCast S1x512 (extractStridedSlice S1x1x512 ![1, 0, 0] OUT slices_S2x1x512_S1x1x512_1_0_0) shapeCasts_S1x1x512_S1x512))
              shapeCasts_S1x512_S512)
            (maximumf CNT (broadcastInDim S512 ![] bcast_S_S512 (constant (F := Ideal) S_ .f32 0x3F800000#32))))
          (broadcastInDim S512 ![] bcast_S_S512 (shapeCast S_ B shapeCasts_S1_S_)))
    shapeCasts_S512_S512x1

/-- Over any contents of the core's buffers, the lines after the kernel leave the result buffer at `tailFn` of the
    output array, the count buffer and the bias argument: each line's result is its function of its operands, and no
    line overwrites a buffer another has yet to read. -/
theorem tail_after (W : Valuation τ sig (Elt Ideal)) :
    StableHlo.after (hostOps1 (F := Ideal)) W (Proc.devRef .tc main_v43)
      = tailFn (W (Proc.devRef .tc main_v30)) (W (Proc.devRef .tc main_v14)) (W (Proc.devRef .tc main_arg5)) := by
  after_results
  rfl

/-- The result buffer after the lines that follow the kernel: `kernelOut` of the region's value over the three padded
    rows. The output array is what the region left, the count buffer and the bias argument are no array of the
    pipeline and keep what they held when the region was entered. -/
theorem result (m : (ℓ : Loc nD τ sig) → Buf (Elt Ideal) ℓ) (c : Dev nD)
    (hin : InRange (m ((c.tc : Thread nD τ).loc main_arg1))) :
    Pipeline.afterTail₀ cfgs (dats m) 0 (V0 m) [hostOps1] c main_v43
      = (kernelOut (regionOut (hiP (m ((c.tc : Thread nD τ).loc main_arg0)) (m ((c.tc : Thread nD τ).loc main_arg1)) (m ((c.tc : Thread nD τ).loc main_arg2)) (m ((c.tc : Thread nD τ).loc main_arg4))) (loP (m ((c.tc : Thread nD τ).loc main_arg0)) (m ((c.tc : Thread nD τ).loc main_arg1)) (m ((c.tc : Thread nD τ).loc main_arg2)) (m ((c.tc : Thread nD τ).loc main_arg4))) (gidP (m ((c.tc : Thread nD τ).loc main_arg1)) (m ((c.tc : Thread nD τ).loc main_arg3))))
              (m ((c.tc : Thread nD τ).loc main_arg3)) (m ((c.tc : Thread nD τ).loc main_arg5)) : SO.Idx → EReal) := by
  unfold Pipeline.afterTail₀
  refine (tail_after _).trans ?_
  have e30 : Pipeline.withArrays (cfgs 0).spec c (V0 m c) (fun w => (dats m 0 c).arrAt w (cfgs 0).N) (Proc.devRef .tc main_v30)
      = (regionOut (hiP (m ((c.tc : Thread nD τ).loc main_arg0)) (m ((c.tc : Thread nD τ).loc main_arg1)) (m ((c.tc : Thread nD τ).loc main_arg2)) (m ((c.tc : Thread nD τ).loc main_arg4))) (loP (m ((c.tc : Thread nD τ).loc main_arg0)) (m ((c.tc : Thread nD τ).loc main_arg1)) (m ((c.tc : Thread nD τ).loc main_arg2)) (m ((c.tc : Thread nD τ).loc main_arg4))) (gidP (m ((c.tc : Thread nD τ).loc main_arg1)) (m ((c.tc : Thread nD τ).loc main_arg3))) : SK.Idx → EReal) :=
    (Pipeline.withArrays_arr spec0 launch0.win.arr_inj c _ _ 3).trans
      ((Cert.KernelRegion.region_value m c).trans (by
        rw [Cert.KernelPrefix.V_hi m c hin, Cert.KernelPrefix.V_lo m c hin, Cert.KernelPrefix.V_gid m c hin]))
  have e14 : Pipeline.withArrays (cfgs 0).spec c (V0 m c) (fun w => (dats m 0 c).arrAt w (cfgs 0).N) (Proc.devRef .tc main_v14)
      = (fun i => cnt (m ((c.tc : Thread nD τ).loc main_arg3)) (i 0) : (⟨1, ![512]⟩ : Shape).Idx → EReal) :=
    (Pipeline.withArrays_of_ne _ c (V0 m c) _ main_v14 (by exact (by decide : ∀ w, Pipeline.arrRef spec0 w ≠ main_v14))).trans
      (Cert.KernelPrefix.V_cnt m c)
  have e5 : Pipeline.withArrays (cfgs 0).spec c (V0 m c) (fun w => (dats m 0 c).arrAt w (cfgs 0).N) (Proc.devRef .tc main_arg5)
      = (m ((c.tc : Thread nD τ).loc main_arg5)) :=
    (Pipeline.withArrays_of_ne _ c (V0 m c) _ main_arg5 (by exact (by decide : ∀ w, Pipeline.arrRef spec0 w ≠ main_arg5))).trans
      (V_main_arg5 m c)
  rw [e30, e14, e5]
  funext i
  rw [eq_ix2 i]
  exact tail_apply _ _ _ _ _ _ _ _ _ _ (i 0) (i 1)

/-- From a memory whose edge table holds node indices: the run ends with the result at `kernelOut` of the region's
    value, and the arguments unchanged. -/
theorem run (m : (ℓ : Loc nD τ sig) → Buf (Elt Ideal) ℓ) (ρ : Dev nD → PrngReg)
    (hin : ∀ c : Dev nD, InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v43)
          = (kernelOut (regionOut (hiP (m ((c.tc : Thread nD τ).loc main_arg0)) (m ((c.tc : Thread nD τ).loc main_arg1)) (m ((c.tc : Thread nD τ).loc main_arg2)) (m ((c.tc : Thread nD τ).loc main_arg4))) (loP (m ((c.tc : Thread nD τ).loc main_arg0)) (m ((c.tc : Thread nD τ).loc main_arg1)) (m ((c.tc : Thread nD τ).loc main_arg2)) (m ((c.tc : Thread nD τ).loc main_arg4))) (gidP (m ((c.tc : Thread nD τ).loc main_arg1)) (m ((c.tc : Thread nD τ).loc main_arg3))))
              (m ((c.tc : Thread nD τ).loc main_arg3)) (m ((c.tc : Thread nD τ).loc main_arg5)) : SO.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v43 (Pipeline.mem_restRefs_of main_v43 (by decide) (by decide))).trans (result m c (hin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.lean ====
/-
  The certificate's claim. The three frames are the generated ones (the reference's is its generated run with the
  result dropped); nothing was rewritten by the ideal pass, so `preserves` is trivial. The value claim: under the
  precondition every float input is real and every edge end point is a node index; then the kernel's run ends at
  the pooled read-out computed blockwise over the padded edge axis, the reference's at the read-out computed through
  the two scatters, and the two are one real number per graph — the sum over the edges whose target node is labelled
  `g` of `edge_attr · (x[src] · W)`, divided by the number of nodes labelled `g` (at least one), plus the bias.
-/
import proofs.«403148_j5978594476679_3_alg».proof.Defs
import proofs.«403148_j5978594476679_3_alg».proof.Proof.Gen.Kernel
import proofs.«403148_j5978594476679_3_alg».proof.Proof.Gen.Kernel.Skeleton
import proofs.«403148_j5978594476679_3_alg».proof.Proof.Gen.Kernel.Launch
import proofs.«403148_j5978594476679_3_alg».proof.Proof.Gen.Kernel.Points
import proofs.«403148_j5978594476679_3_alg».proof.Proof.Gen.Kernel.Frame
import proofs.«403148_j5978594476679_3_alg».proof.Proof.Gen.KernelIdeal
import proofs.«403148_j5978594476679_3_alg».proof.Proof.Gen.KernelIdeal.Skeleton
import proofs.«403148_j5978594476679_3_alg».proof.Proof.Gen.KernelIdeal.Launch
import proofs.«403148_j5978594476679_3_alg».proof.Proof.Gen.KernelIdeal.Points
import proofs.«403148_j5978594476679_3_alg».proof.Proof.Gen.KernelIdeal.Frame
import proofs.«403148_j5978594476679_3_alg».proof.Proof.Gen.ReferenceIdeal
import proofs.«403148_j5978594476679_3_alg».proof.Proof.Gen.ReferenceIdeal.Run
import proofs.«403148_j5978594476679_3_alg».proof.Proof.Gen.ReferenceIdeal.Read
import proofs.«403148_j5978594476679_3_alg».proof.Proof.Gen.Pre_finite_inputs
import proofs.«403148_j5978594476679_3_alg».proof.Proof.Spec
import proofs.«403148_j5978594476679_3_alg».proof.Proof.Algebra
import proofs.«403148_j5978594476679_3_alg».proof.Proof.PreFacts
import proofs.«403148_j5978594476679_3_alg».proof.Proof.RefValue
import proofs.«403148_j5978594476679_3_alg».proof.Proof.KernelRun
import Idealize.ShloMosaic.Adequacy
import Idealize.ShloMosaic.Init

noncomputable section

namespace Cert.Proof

open Idealize.ShloMosaic Idealize.ShloMosaic.TcCoe Idealize.SL.Sem GnnPool

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at one function of the (agreeing) arguments: the reference's read-out. -/
theorem algebraic : Cert.algebraic_KernelIdeal_ReferenceIdeal := by
  intro m ρ m' ρ' hpre hagree
  have hfacts := fun c : Dev Cert.KernelIdeal.nD =>
    Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (hpre c)
  refine ⟨_, Cert.KernelRun.run m ρ (fun c => (hfacts c).2.2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  obtain ⟨hx, hea, hW, hb, hin⟩ := hfacts c
  rw [Cert.RefValue.result_eq _ _ _ _ _ _ hin]
  exact (kernel_eq_ref _ _ _ _ _ _ hx hea hW hb hin).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
